-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S2048x11008 : Shape := ⟨2, ![2048, 11008]⟩
abbrev S32x11008 : Shape := ⟨2, ![32, 11008]⟩
abbrev S11008 : Shape := ⟨1, ![11008]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts]

def fn_part1 {F : FTy → Type} [FloatOps F] (main_arg1 : IVec S4096 32) (main_v0 : IVec S4096 32) (main_v14 : IVec S_ 1) (main_v16 : IVec S4096 1) : IVec S_ 1 :=
  let main_c_5 : IVec S_ 32 := constantI S_ 32 4096#32
  let main_v17 : IVec S4096 32 := broadcastInDim S4096 ![] bcast_S_S4096 main_c_5
  let main_v18 : IVec S4096 1 := cmpi .slt main_arg1 main_v17
  let main_v19 : IVec S4096 1 := andi main_v16 main_v18
  let main_c_6 : IVec S_ 1 := constantI S_ 1 1#1
  let main_v20 : IVec S_ 1 := (fun x v => Host.reduce IntOp.andi x v reducesTo_S4096_S_d0 h_S_) main_v19 main_c_6
  let main_v21 : IVec S_ 1 := andi main_v14 main_v20
  let main_v22 : IVec S4096x1 32 := broadcastInDim S4096x1 ![0] bcast_S4096_S4096x1_0 main_arg1
  let main_v23 : IVec S1x4096 32 := broadcastInDim S1x4096 ![1] bcast_S4096_S1x4096_1 main_arg1
  let main_v24 : IVec S4096x4096 32 := broadcastInDim S4096x4096 ![0, 1] bcast_S4096x1_S4096x4096_0_1 main_v22
  let main_v25 : IVec S4096x4096 32 := broadcastInDim S4096x4096 ![0, 1] bcast_S1x4096_S4096x4096_0_1 main_v23
  let main_v26 : IVec S4096x4096 1 := cmpi .ne main_v24 main_v25
  let main_v27 : IVec S4096x1 32 := broadcastInDim S4096x1 ![0] bcast_S4096_S4096x1_0 main_v0
  let main_v28 : IVec S1x4096 32 := broadcastInDim S1x4096 ![1] bcast_S4096_S1x4096_1 main_v0
  let main_v29 : IVec S4096x4096 32 := broadcastInDim S4096x4096 ![0, 1] bcast_S4096x1_S4096x4096_0_1 main_v27
  let main_v30 : IVec S4096x4096 32 := broadcastInDim S4096x4096 ![0, 1] bcast_S1x4096_S4096x4096_0_1 main_v28
  let main_v31 : IVec S4096x4096 1 := cmpi .eq main_v29 main_v30
  let main_v32 : IVec S4096x4096 1 := ori main_v26 main_v31
  let main_c_7 : IVec S_ 1 := constantI S_ 1 1#1
  let main_v33 : IVec S_ 1 := (fun x v => Host.reduce IntOp.andi x v reducesTo_S4096x4096_S_d0_1 h_S_) main_v32 main_c_7
  let main_v34 : IVec S_ 1 := andi main_v21 main_v33
  main_v34

def fn {F : FTy → Type} [FloatOps F] (main_arg0 : FVec F S4x2048x4096 .f32) (main_arg1 : IVec S4096 32) (main_arg2 : IVec S2048x11008 32) (main_arg3 : FVec F S32x11008 .f32) (main_arg4 : FVec F S11008 .f32) : IVec S_ 1 :=
  let main_v0 : IVec S4096 32 := iotaInDim S4096 32 0
  let main_v1 : FVec F S4x2048x4096 .f32 := Host.absf main_arg0
  let main_cst : FVec F S_ .f32 := constant S_ .f32 0x7F800000#32
  let main_v2 : FVec F S4x2048x4096 .f32 := broadcastInDim S4x2048x4096 ![] bcast_S_S4x2048x4096 main_cst
  let main_v3 : IVec S4x2048x4096 1 := cmpf .olt main_v1 main_v2
  let main_c : IVec S_ 1 := constantI S_ 1 1#1
  let main_v4 : IVec S_ 1 := (fun x v => Host.reduce IntOp.andi x v reducesTo_S4x2048x4096_S_d0_1_2 h_S_) main_v3 main_c
  let main_v5 : FVec F S32x11008 .f32 := Host.absf main_arg3
  let main_cst_0 : FVec F S_ .f32 := constant S_ .f32 0x7F800000#32
  let main_v6 : FVec F S32x11008 .f32 := broadcastInDim S32x11008 ![] bcast_S_S32x11008 main_cst_0
  let main_v7 : IVec S32x11008 1 := cmpf .olt main_v5 main_v6
  let main_c_1 : IVec S_ 1 := constantI S_ 1 1#1
  let main_v8 : IVec S_ 1 := (fun x v => Host.reduce IntOp.andi x v reducesTo_S32x11008_S_d0_1 h_S_) main_v7 main_c_1
  let main_v9 : IVec S_ 1 := andi main_v4 main_v8
  let main_v10 : FVec F S11008 .f32 := Host.absf main_arg4
  let main_cst_2 : FVec F S_ .f32 := constant S_ .f32 0x7F800000#32
  let main_v11 : FVec F S11008 .f32 := broadcastInDim S11008 ![] bcast_S_S11008 main_cst_2
  let main_v12 : IVec S11008 1 := cmpf .olt main_v10 main_v11
  let main_c_3 : IVec S_ 1 := constantI S_ 1 1#1
  let main_v13 : IVec S_ 1 := (fun x v => Host.reduce IntOp.andi x v reducesTo_S11008_S_d0 h_S_) main_v12 main_c_3
  let main_v14 : IVec S_ 1 := andi main_v9 main_v13
  let main_c_4 : IVec S_ 32 := constantI S_ 32 0#32
  let main_v15 : IVec S4096 32 := broadcastInDim S4096 ![] bcast_S_S4096 main_c_4
  let main_v16 : IVec S4096 1 := cmpi .sge main_arg1 main_v15
  fn_part1 (F := F) main_arg1 main_v0 main_v14 main_v16
-- ==== Kernel.lean ====
abbrev S4x2048x4096 : Shape := ⟨3, ![4, 2048, 4096]⟩
abbrev S4096 : Shape := ⟨1, ![4096]⟩
abbrev S2048x11008 : Shape := ⟨2, ![2048, 11008]⟩
abbrev S32x11008 : Shape := ⟨2, ![32, 11008]⟩
abbrev S11008 : Shape := ⟨1, ![11008]⟩
abbrev S_ : Shape := ⟨0, ![]⟩
abbrev S2048x1x11008 : Shape := ⟨3, ![2048, 1, 11008]⟩
abbrev S2048x2x11008 : Shape := ⟨3, ![2048, 2, 11008]⟩
abbrev S4096x11008 : Shape := ⟨2, ![4096, 11008]⟩
abbrev S32x128x11008 : Shape := ⟨3, ![32, 128, 11008]⟩
abbrev S32x1x11008 : Shape := ⟨3, ![32, 1, 11008]⟩
abbrev S4096x1 : Shape := ⟨2, ![4096, 1]⟩
abbrev S4096x11264 : Shape := ⟨2, ![4096, 11264]⟩
abbrev S11264 : Shape := ⟨1, ![11264]⟩
abbrev S1x11264 : Shape := ⟨2, ![1, 11264]⟩
abbrev S8192x4096 : Shape := ⟨2, ![8192, 4096]⟩
abbrev S8192x11264 : Shape := ⟨2, ![8192, 11264]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩
abbrev S8192x11008 : Shape := ⟨2, ![8192, 11008]⟩
abbrev S4x2048x11008 : Shape := ⟨3, ![4, 2048, 11008]⟩

abbrev nBuf : Space → Nat
  | .hbm => 54
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096, .i32⟩
  | .hbm, ⟨2, _⟩ => ⟨S2048x11008, .i32⟩
  | .hbm, ⟨3, _⟩ => ⟨S32x11008, .f32⟩
  | .hbm, ⟨4, _⟩ => ⟨S11008, .f32⟩
  | .hbm, ⟨5, _⟩ => ⟨S_, .i32⟩
  | .hbm, ⟨6, _⟩ => ⟨S2048x11008, .i32⟩
  | .hbm, ⟨7, _⟩ => ⟨S2048x11008, .i32⟩
  | .hbm, ⟨8, _⟩ => ⟨S_, .i32⟩
  | .hbm, ⟨9, _⟩ => ⟨S2048x11008, .i32⟩
  | .hbm, ⟨10, _⟩ => ⟨S2048x11008, .i32⟩
  | .hbm, ⟨11, _⟩ => ⟨S_, .i32⟩
  | .hbm, ⟨12, _⟩ => ⟨S2048x11008, .i32⟩
  | .hbm, ⟨13, _⟩ => ⟨S2048x11008, .i32⟩
  | .hbm, ⟨14, _⟩ => ⟨S_, .i32⟩
  | .hbm, ⟨15, _⟩ => ⟨S2048x11008, .i32⟩
  | .hbm, ⟨16, _⟩ => ⟨S2048x11008, .i32⟩
  | .hbm, ⟨17, _⟩ => ⟨S_, .i32⟩
  | .hbm, ⟨18, _⟩ => ⟨S2048x11008, .i32⟩
  | .hbm, ⟨19, _⟩ => ⟨S2048x11008, .i32⟩
  | .hbm, ⟨20, _⟩ => ⟨S2048x1x11008, .i32⟩
  | .hbm, ⟨21, _⟩ => ⟨S2048x1x11008, .i32⟩
  | .hbm, ⟨22, _⟩ => ⟨S2048x2x11008, .i32⟩
  | .hbm, ⟨23, _⟩ => ⟨S4096x11008, .i32⟩
  | .hbm, ⟨24, _⟩ => ⟨S4096x11008, .f32⟩
  | .hbm, ⟨25, _⟩ => ⟨S32x128x11008, .f32⟩
  | .hbm, ⟨26, _⟩ => ⟨S32x1x11008, .f32⟩
  | .hbm, ⟨27, _⟩ => ⟨S32x128x11008, .f32⟩
  | .hbm, ⟨28, _⟩ => ⟨S32x128x11008, .f32⟩
  | .hbm, ⟨29, _⟩ => ⟨S4096x11008, .f32⟩
  | .hbm, ⟨30, _⟩ => ⟨S_, .f32⟩
  | .hbm, ⟨31, _⟩ => ⟨S4096x11008, .f32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x11008, .f32⟩
  | .hbm, ⟨41, _⟩ => ⟨S4096x11008, .bf16⟩
  | .hbm, ⟨42, _⟩ => ⟨S_, .i32⟩
  | .hbm, ⟨43, _⟩ => ⟨S_, .bf16⟩
  | .hbm, ⟨44, _⟩ => ⟨S4096x11264, .bf16⟩
  | .hbm, ⟨45, _⟩ => ⟨S_, .i32⟩
  | .hbm, ⟨46, _⟩ => ⟨S_, .f32⟩
  | .hbm, ⟨47, _⟩ => ⟨S11264, .f32⟩
  | .hbm, ⟨48, _⟩ => ⟨S1x11264, .f32⟩
  | .hbm, ⟨49, _⟩ => ⟨S8192x4096, .f32⟩
  | .hbm, ⟨50, _⟩ => ⟨S8192x4096, .bf16⟩
  | .hbm, ⟨51, _⟩ => ⟨S8192x11264, .f32⟩
  | .hbm, ⟨52, _⟩ => ⟨S8192x11008, .f32⟩
  | .hbm, ⟨53, _⟩ => ⟨S4x2048x11008, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_call0_v0 : Ref sig .tc := ⟨.hbm, 43, rfl⟩
abbrev main_v29 : Ref sig .tc := ⟨.hbm, 44, rfl⟩
abbrev main_c_7 : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S2048x11008 : S_.BroadcastsInDim S2048x11008 (![] : Fin 0 → Fin S2048x11008.rank)
  bcast_S2048x11008_S2048x1x11008_0_2 : S2048x11008.BroadcastsInDim S2048x1x11008 (![0, 2] : Fin 2 → Fin S2048x1x11008.rank)
  concatenates_S2048x1x11008_S2048x1x11008_S2048x2x11008_d1 : Shape.Concatenates [S2048x1x11008, S2048x1x11008] S2048x2x11008 1
  shapeCasts_S2048x2x11008_S4096x11008 : S2048x2x11008.ShapeCasts S4096x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S_S4096x11008 : S_.BroadcastsInDim S4096x11008 (![] : Fin 0 → Fin S4096x11008.rank)
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  pads_S4096x11008_S4096x11264_000_02560 : S4096x11008.Pads (![0, 0] : Fin 2 → Nat) ![0, 256] ![0, 0] S4096x11264
  h_S_ : 0 < S_.numel
  pads_S11008_S11264_02560 : S11008.Pads (![0] : Fin 1 → Nat) ![256] ![0] S11264
  shapeCasts_S11264_S1x11264 : S11264.ShapeCasts S1x11264
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  slices_S8192x11264_S8192x11008_0_0 : S8192x11264.Slices ![0, 0] S8192x11008
  shapeCasts_S8192x11008_S4x2048x11008 : S8192x11008.ShapeCasts S4x2048x11008
  scatter_S4096x11008_S4096x1_S4096x11008_1_0_0_1_wf : ScatterDims.WF S4096x11008 S4096x1 S4096x11008 [1] [0] [0] 1
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x11264.size a
  hwx0_1 : ∀ i : grid0.Coords, EltTy.bits .bf16 = 32 ∨ (Rect.block (s := S4096x11264) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x11264.size a
  hwx0_2 : ∀ i : grid0.Coords, EltTy.bits .f32 = 32 ∨ (Rect.block (s := S1x11264) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x11264.size a
  hwx0_3 : ∀ i : grid0.Coords, EltTy.bits .f32 = 32 ∨ (Rect.block (s := S8192x11264) S512x1024.size (cc0_transform_3 i) (hinb0_3 i)).WholeWords (EltTy.packing .f32)

variable [Facts₀]

def scatter_S4096x11008_S4096x1_S4096x11008_1_0_0_1 : ScatterDims S4096x11008 S4096x1 S4096x11008 where
  updateWindowDims := [1]
  insertedWindowDims := [0]
  scatterDimsToOperandDims := [0]
  indexVectorDim := 1
  wf := scatter_S4096x11008_S4096x1_S4096x11008_1_0_0_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v33) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096 : Shape := ⟨1, ![4096]⟩
abbrev S2048x11008 : Shape := ⟨2, ![2048, 11008]⟩
abbrev S32x11008 : Shape := ⟨2, ![32, 11008]⟩
abbrev S11008 : Shape := ⟨1, ![11008]⟩
abbrev S8192x4096 : Shape := ⟨2, ![8192, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S2048x1x11008 : Shape := ⟨3, ![2048, 1, 11008]⟩
abbrev S2048x2x11008 : Shape := ⟨3, ![2048, 2, 11008]⟩
abbrev S4096x11008 : Shape := ⟨2, ![4096, 11008]⟩
abbrev S32x128x11008 : Shape := ⟨3, ![32, 128, 11008]⟩
abbrev S32x1x11008 : Shape := ⟨3, ![32, 1, 11008]⟩
abbrev S8192x11008 : Shape := ⟨2, ![8192, 11008]⟩
abbrev S1x11008 : Shape := ⟨2, ![1, 11008]⟩
abbrev S4x2048x11008 : Shape := ⟨3, ![4, 2048, 11008]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .i32⟩
  | .hbm, ⟨2, _⟩ => ⟨S2048x11008, .i32⟩
  | .hbm, ⟨3, _⟩ => ⟨S32x11008, .f32⟩
  | .hbm, ⟨4, _⟩ => ⟨S11008, .f32⟩
  | .hbm, ⟨5, _⟩ => ⟨S8192x4096, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S8192x4096, .f32⟩
  | .hbm, ⟨25, _⟩ => ⟨S8192x4096, .i1⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .i32⟩
  | .hbm, ⟨30, _⟩ => ⟨S2048x11008, .i32⟩
  | .hbm, ⟨31, _⟩ => ⟨S2048x11008, .i32⟩
  | .hbm, ⟨32, _⟩ => ⟨S_, .i32⟩
  | .hbm, ⟨33, _⟩ => ⟨S2048x11008, .i32⟩
  | .hbm, ⟨34, _⟩ => ⟨S2048x11008, .i32⟩
  | .hbm, ⟨35, _⟩ => ⟨S_, .i32⟩
  | .hbm, ⟨36, _⟩ => ⟨S2048x11008, .i32⟩
  | .hbm, ⟨37, _⟩ => ⟨S2048x11008, .i32⟩
  | .hbm, ⟨38, _⟩ => ⟨S_, .i32⟩
  | .hbm, ⟨39, _⟩ => ⟨S2048x11008, .i32⟩
  | .hbm, ⟨40, _⟩ => ⟨S2048x11008, .i32⟩
  | .hbm, ⟨41, _⟩ => ⟨S_, .i32⟩
  | .hbm, ⟨42, _⟩ => ⟨S2048x11008, .i32⟩
  | .hbm, ⟨43, _⟩ => ⟨S2048x11008, .i32⟩
  | .hbm, ⟨44, _⟩ => ⟨S2048x1x11008, .i32⟩
  | .hbm, ⟨45, _⟩ => ⟨S2048x1x11008, .i32⟩
  | .hbm, ⟨46, _⟩ => ⟨S2048x2x11008, .i32⟩
  | .hbm, ⟨47, _⟩ => ⟨S4096x11008, .i32⟩
  | .hbm, ⟨48, _⟩ => ⟨S4096x11008, .f32⟩
  | .hbm, ⟨49, _⟩ => ⟨S32x128x11008, .f32⟩
  | .hbm, ⟨50, _⟩ => ⟨S32x1x11008, .f32⟩
  | .hbm, ⟨51, _⟩ => ⟨S32x128x11008, .f32⟩
  | .hbm, ⟨52, _⟩ => ⟨S32x128x11008, .f32⟩
  | .hbm, ⟨53, _⟩ => ⟨S4096x11008, .f32⟩
  | .hbm, ⟨54, _⟩ => ⟨S8192x11008, .f32⟩
  | .hbm, ⟨55, _⟩ => ⟨S1x11008, .f32⟩
  | .hbm, ⟨56, _⟩ => ⟨S8192x11008, .f32⟩
  | .hbm, ⟨57, _⟩ => ⟨S8192x11008, .f32⟩
  | .hbm, ⟨58, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_c : Ref sig .tc := ⟨.hbm, 29, rfl⟩
abbrev main_v2 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_c_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S8192x4096_1 : S4096.BroadcastsInDim S8192x4096 (![1] : Fin 1 → Fin S8192x4096.rank)
  bcast_S_S8192x4096 : S_.BroadcastsInDim S8192x4096 (![] : Fin 0 → Fin S8192x4096.rank)
  bcast_S_S2048x11008 : S_.BroadcastsInDim S2048x11008 (![] : Fin 0 → Fin S2048x11008.rank)
  bcast_S2048x11008_S2048x1x11008_0_2 : S2048x11008.BroadcastsInDim S2048x1x11008 (![0, 2] : Fin 2 → Fin S2048x1x11008.rank)
  concatenates_S2048x1x11008_S2048x1x11008_S2048x2x11008_d1 : Shape.Concatenates [S2048x1x11008, S2048x1x11008] S2048x2x11008 1
  shapeCasts_S2048x2x11008_S4096x11008 : S2048x2x11008.ShapeCasts S4096x11008
  shapeCasts_S4096x11008_S32x128x11008 : S4096x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  shapeCasts_S8192x11008_S4x2048x11008 : S8192x11008.ShapeCasts S4x2048x11008
  gather_S8192x4096_S4096x1_S8192x4096_0_1_n_n_1_1_81921_wf : GatherDims.WF S8192x4096 S4096x1 S8192x4096 [0] [1] [] [1] [] 1 ![8192, 1]
  dot_S8192x4096_S4096x11008_S8192x11008_1_0_0_1_n_n_wf : DotDims.WF S8192x4096 S4096x11008 S8192x11008 [1] [0] [0] [1] [] []

variable [Facts₀]

def gather_S8192x4096_S4096x1_S8192x4096_0_1_n_n_1_1_81921 : GatherDims S8192x4096 S4096x1 S8192x4096 where
  offsetDims := [0]
  collapsedSliceDims := [1]
  operandBatchingDims := []
  startIndicesBatchingDims := []
  startIndexMap := [1]
  indexVectorDim := 1
  sliceSizes := ![8192, 1]
  wf := gather_S8192x4096_S4096x1_S8192x4096_0_1_n_n_1_1_81921_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.RefRun.lean ====
/-
  The reference program's run, read back as one closed term. The reference computes
  out = take(x, col_indices, axis = 1) @ dequant(packed, scales) + bias: it flattens x to 8192 rows,
  takes its columns at the indices (an index below zero wrapped by 4096, a column whose wrapped index
  falls outside [0, 4095] filled with NaN), unpacks each 32-bit word's two low nibbles into two signed
  4-bit weights (low nibble first), multiplies each group of 128 consecutive rows by its scale,
  contracts the taken activations with that weight over the 4096 columns, adds the bias along the rows
  and restores the leading two axes. This module lists the 54 elementary operations in order (the two
  outlined helper functions unfolded at their call sites), names the composed mathematical terms
  (`Wr`, `idx5`, `inb`, `taken`, `res2D`), and proves that every execution terminates with the result
  buffer holding that composed term of the argument buffers, the arguments unchanged.
-/
import proofs.«415435_j64330020159893_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

section Ops

variable {F : FTy → Type} [FloatOps F]

/-- the reference's 54 operations in order: the flattening of x, the 23 operations of the column take
    (the wrap-around select of its inner helper among them), the 29 of the dequantisation, contraction and bias, the final reshape -/
abbrev ops : List (HloOp τ sig (Elt F)) :=
  [ reshape main_arg0 main_v0 rfl shapeCasts_S4x2048x4096_S8192x4096,
    nullary main_call0_c (constantI S_ 32 0#32),
    unary main_call0_c main_call0_v0 (broadcastInDim S4096 ![] bcast_S_S4096 : (⟨S_, .i32⟩ : BufTy).Contents (Elt F) → (⟨S4096, .i32⟩ : BufTy).Contents (Elt F)),
    binary main_arg1 main_call0_v0 main_call0_v1 (cmpi .slt : (⟨S4096, .i32⟩ : BufTy).Contents (Elt F) → (⟨S4096, .i32⟩ : BufTy).Contents (Elt F) → (⟨S4096, .i1⟩ : BufTy).Contents (Elt F)),
    nullary main_call0_c_0 (constantI S_ 32 4096#32),
    unary main_call0_c_0 main_call0_v2 (broadcastInDim S4096 ![] bcast_S_S4096 : (⟨S_, .i32⟩ : BufTy).Contents (Elt F) → (⟨S4096, .i32⟩ : BufTy).Contents (Elt F)),
    binary main_arg1 main_call0_v2 main_call0_v3 (addi : (⟨S4096, .i32⟩ : BufTy).Contents (Elt F) → (⟨S4096, .i32⟩ : BufTy).Contents (Elt F) → (⟨S4096, .i32⟩ : BufTy).Contents (Elt F)),
    ternary main_call0_v1 main_call0_v3 main_arg1 main_call0_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_call0_v4 main_call0_v5 (broadcastInDim S4096x1 ![0] bcast_S4096_S4096x1_0 : (⟨S4096, .i32⟩ : BufTy).Contents (Elt F) → (⟨S4096x1, .i32⟩ : BufTy).Contents (Elt F)),
    nullary main_call0_c_1 (constantI S1 32 4095#32),
    nullary main_call0_c_2 (constantI S_ 32 0#32),
    unary main_call0_c_2 main_call0_v6 (broadcastInDim S4096x1 ![] bcast_S_S4096x1 : (⟨S_, .i32⟩ : BufTy).Contents (Elt F) → (⟨S4096x1, .i32⟩ : BufTy).Contents (Elt F)),
    binary main_call0_v5 main_call0_v6 main_call0_v7 (cmpi .sge : (⟨S4096x1, .i32⟩ : BufTy).Contents (Elt F) → (⟨S4096x1, .i32⟩ : BufTy).Contents (Elt F) → (⟨S4096x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S4096x1 ![0, 1] bcast_S1x1_S4096x1_0_1 : (⟨S1x1, .i32⟩ : BufTy).Contents (Elt F) → (⟨S4096x1, .i32⟩ : BufTy).Contents (Elt F)),
    binary main_call0_v5 main_call0_v9 main_call0_v10 (cmpi .sle : (⟨S4096x1, .i32⟩ : BufTy).Contents (Elt F) → (⟨S4096x1, .i32⟩ : BufTy).Contents (Elt F) → (⟨S4096x1, .i1⟩ : BufTy).Contents (Elt F)),
    binary main_call0_v7 main_call0_v10 main_call0_v11 (andi : (⟨S4096x1, .i1⟩ : BufTy).Contents (Elt F) → (⟨S4096x1, .i1⟩ : BufTy).Contents (Elt F) → (⟨S4096x1, .i1⟩ : BufTy).Contents (Elt F)),
    nullary main_call0_c_3 (constantI S_ 1 1#1),
    binary main_call0_v11 main_call0_c_3 main_call0_v12 ((fun x v => Host.reduce IntOp.andi x v reducesTo_S4096x1_S4096_d1 h_S_) : (⟨S4096x1, .i1⟩ : BufTy).Contents (Elt F) → (⟨S_, .i1⟩ : BufTy).Contents (Elt F) → (⟨S4096, .i1⟩ : BufTy).Contents (Elt F)),
    binary main_v0 main_call0_v5 main_call0_v13 ((fun x i => Host.gather gather_S8192x4096_S4096x1_S8192x4096_0_1_n_n_1_1_81921 x i) : (⟨S8192x4096, .f32⟩ : BufTy).Contents (Elt F) → (⟨S4096x1, .i32⟩ : BufTy).Contents (Elt F) → (⟨S8192x4096, .f32⟩ : BufTy).Contents (Elt F)),
    unary main_call0_v12 main_call0_v14 (broadcastInDim S8192x4096 ![1] bcast_S4096_S8192x4096_1 : (⟨S4096, .i1⟩ : BufTy).Contents (Elt F) → (⟨S8192x4096, .i1⟩ : BufTy).Contents (Elt F)),
    nullary main_call0_cst (constant S_ .f32 0x7FC00000#32),
    unary main_call0_cst main_call0_v15 (broadcastInDim S8192x4096 ![] bcast_S_S8192x4096 : (⟨S_, .f32⟩ : BufTy).Contents (Elt F) → (⟨S8192x4096, .f32⟩ : BufTy).Contents (Elt F)),
    ternary main_call0_v14 main_call0_v13 main_call0_v15 main_v1 (select : (⟨S8192x4096, .i1⟩ : BufTy).Contents (Elt F) → (⟨S8192x4096, .f32⟩ : BufTy).Contents (Elt F) → (⟨S8192x4096, .f32⟩ : BufTy).Contents (Elt F) → (⟨S8192x4096, .f32⟩ : BufTy).Contents (Elt F)),
    nullary main_c (constantI S_ 32 15#32),
    unary main_c main_v2 (broadcastInDim S2048x11008 ![] bcast_S_S2048x11008 : (⟨S_, .i32⟩ : BufTy).Contents (Elt F) → (⟨S2048x11008, .i32⟩ : BufTy).Contents (Elt F)),
    binary main_arg2 main_v2 main_v3 (andi : (⟨S2048x11008, .i32⟩ : BufTy).Contents (Elt F) → (⟨S2048x11008, .i32⟩ : BufTy).Contents (Elt F) → (⟨S2048x11008, .i32⟩ : BufTy).Contents (Elt F)),
    nullary main_c_0 (constantI S_ 32 8#32),
    unary main_c_0 main_v4 (broadcastInDim S2048x11008 ![] bcast_S_S2048x11008 : (⟨S_, .i32⟩ : BufTy).Contents (Elt F) → (⟨S2048x11008, .i32⟩ : BufTy).Contents (Elt F)),
    binary main_v3 main_v4 main_v5 (subi : (⟨S2048x11008, .i32⟩ : BufTy).Contents (Elt F) → (⟨S2048x11008, .i32⟩ : BufTy).Contents (Elt F) → (⟨S2048x11008, .i32⟩ : BufTy).Contents (Elt F)),
    nullary main_c_1 (constantI S_ 32 4#32),
    unary main_c_1 main_v6 (broadcastInDim S2048x11008 ![] bcast_S_S2048x11008 : (⟨S_, .i32⟩ : BufTy).Contents (Elt F) → (⟨S2048x11008, .i32⟩ : BufTy).Contents (Elt F)),
    binary main_arg2 main_v6 main_v7 (Host.shrsi : (⟨S2048x11008, .i32⟩ : BufTy).Contents (Elt F) → (⟨S2048x11008, .i32⟩ : BufTy).Contents (Elt F) → (⟨S2048x11008, .i32⟩ : BufTy).Contents (Elt F)),
    nullary main_c_2 (constantI S_ 32 15#32),
    unary main_c_2 main_v8 (broadcastInDim S2048x11008 ![] bcast_S_S2048x11008 : (⟨S_, .i32⟩ : BufTy).Contents (Elt F) → (⟨S2048x11008, .i32⟩ : BufTy).Contents (Elt F)),
    binary main_v7 main_v8 main_v9 (andi : (⟨S2048x11008, .i32⟩ : BufTy).Contents (Elt F) → (⟨S2048x11008, .i32⟩ : BufTy).Contents (Elt F) → (⟨S2048x11008, .i32⟩ : BufTy).Contents (Elt F)),
    nullary main_c_3 (constantI S_ 32 8#32),
    unary main_c_3 main_v10 (broadcastInDim S2048x11008 ![] bcast_S_S2048x11008 : (⟨S_, .i32⟩ : BufTy).Contents (Elt F) → (⟨S2048x11008, .i32⟩ : BufTy).Contents (Elt F)),
    binary main_v9 main_v10 main_v11 (subi : (⟨S2048x11008, .i32⟩ : BufTy).Contents (Elt F) → (⟨S2048x11008, .i32⟩ : BufTy).Contents (Elt F) → (⟨S2048x11008, .i32⟩ : BufTy).Contents (Elt F)),
    unary main_v5 main_v12 (broadcastInDim S2048x1x11008 ![0, 2] bcast_S2048x11008_S2048x1x11008_0_2 : (⟨S2048x11008, .i32⟩ : BufTy).Contents (Elt F) → (⟨S2048x1x11008, .i32⟩ : BufTy).Contents (Elt F)),
    unary main_v11 main_v13 (broadcastInDim S2048x1x11008 ![0, 2] bcast_S2048x11008_S2048x1x11008_0_2 : (⟨S2048x11008, .i32⟩ : BufTy).Contents (Elt F) → (⟨S2048x1x11008, .i32⟩ : BufTy).Contents (Elt F)),
    binary main_v12 main_v13 main_v14 ((fun a b => concatenate S2048x2x11008 1 [⟨S2048x1x11008, a⟩, ⟨S2048x1x11008, b⟩] concatenates_S2048x1x11008_S2048x1x11008_S2048x2x11008_d1) : (⟨S2048x1x11008, .i32⟩ : BufTy).Contents (Elt F) → (⟨S2048x1x11008, .i32⟩ : BufTy).Contents (Elt F) → (⟨S2048x2x11008, .i32⟩ : BufTy).Contents (Elt F)),
    reshape main_v14 main_v15 rfl shapeCasts_S2048x2x11008_S4096x11008,
    unary main_v15 main_v16 (sitofp .f32 : (⟨S4096x11008, .i32⟩ : BufTy).Contents (Elt F) → (⟨S4096x11008, .f32⟩ : BufTy).Contents (Elt F)),
    reshape main_v16 main_v17 rfl shapeCasts_S4096x11008_S32x128x11008,
    unary main_arg3 main_v18 (broadcastInDim S32x1x11008 ![0, 2] bcast_S32x11008_S32x1x11008_0_2 : (⟨S32x11008, .f32⟩ : BufTy).Contents (Elt F) → (⟨S32x1x11008, .f32⟩ : BufTy).Contents (Elt F)),
    unary main_v18 main_v19 (broadcastInDim S32x128x11008 ![0, 1, 2] bcast_S32x1x11008_S32x128x11008_0_1_2 : (⟨S32x1x11008, .f32⟩ : BufTy).Contents (Elt F) → (⟨S32x128x11008, .f32⟩ : BufTy).Contents (Elt F)),
    binary main_v17 main_v19 main_v20 (mulf : (⟨S32x128x11008, .f32⟩ : BufTy).Contents (Elt F) → (⟨S32x128x11008, .f32⟩ : BufTy).Contents (Elt F) → (⟨S32x128x11008, .f32⟩ : BufTy).Contents (Elt F)),
    reshape main_v20 main_v21 rfl shapeCasts_S32x128x11008_S4096x11008,
    binary main_v1 main_v21 main_v22 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    unary main_arg4 main_v23 (broadcastInDim S1x11008 ![1] bcast_S11008_S1x11008_1 : (⟨S11008, .f32⟩ : BufTy).Contents (Elt F) → (⟨S1x11008, .f32⟩ : BufTy).Contents (Elt F)),
    unary main_v23 main_v24 (broadcastInDim S8192x11008 ![0, 1] bcast_S1x11008_S8192x11008_0_1 : (⟨S1x11008, .f32⟩ : BufTy).Contents (Elt F) → (⟨S8192x11008, .f32⟩ : BufTy).Contents (Elt F)),
    binary main_v22 main_v24 main_v25 (addf : (⟨S8192x11008, .f32⟩ : BufTy).Contents (Elt F) → (⟨S8192x11008, .f32⟩ : BufTy).Contents (Elt F) → (⟨S8192x11008, .f32⟩ : BufTy).Contents (Elt F)),
    reshape main_v25 main_v26 rfl shapeCasts_S8192x11008_S4x2048x11008 ]

set_option maxRecDepth 100000 in
/-- the program is that straight line: the two helper functions unfolded at their calls, sequencing reassociated -/
theorem main_eq (c : Dev nD) : main (F := F) c = seq ops := by
  simp only [main, fn_take.body, fn_where.body, seq, bind_assoc, pure_bind]
  rfl

/-- no buffer of the reference is scoped -/
theorem scopedRefs_eq : (Finset.univ.filter fun b : Ref sig .tc => b.isScoped) = ∅ := by decide
/-- no semaphore of the reference is scoped -/
theorem scopedSems_eq : (Finset.univ.filter fun sm : SemLoc sig => sm.isScoped .tc) = ∅ := by decide
/-- every operation touches device buffers only -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    reshape_bufs_sub .., unary_bufs_sub .., reshape_bufs_sub .., unary_bufs_sub .., unary_bufs_sub .., binary_bufs_sub ..,
    reshape_bufs_sub .., binary_bufs_sub .., unary_bufs_sub .., unary_bufs_sub .., binary_bufs_sub .., reshape_bufs_sub ..⟩

end Ops

/-- the dequantised weight: operations %2 … %21 of @main composed, as a function of the packed words and the scales -/
def Wr (P : IVec S2048x11008 32) (Sc : FVec Ideal S32x11008 .f32) : FVec Ideal S4096x11008 .f32 :=
  shapeCast S4096x11008
    (mulf
      (shapeCast S32x128x11008
        (sitofp .f32
          (shapeCast S4096x11008
            (concatenate S2048x2x11008 1
              [⟨S2048x1x11008, broadcastInDim S2048x1x11008 ![0, 2] bcast_S2048x11008_S2048x1x11008_0_2
                  (subi (andi P (broadcastInDim S2048x11008 ![] bcast_S_S2048x11008 (constantI S_ 32 15#32)))
                    (broadcastInDim S2048x11008 ![] bcast_S_S2048x11008 (constantI S_ 32 8#32)))⟩,
               ⟨S2048x1x11008, broadcastInDim S2048x1x11008 ![0, 2] bcast_S2048x11008_S2048x1x11008_0_2
                  (subi (andi (Host.shrsi P (broadcastInDim S2048x11008 ![] bcast_S_S2048x11008 (constantI S_ 32 4#32)))
                      (broadcastInDim S2048x11008 ![] bcast_S_S2048x11008 (constantI S_ 32 15#32)))
                    (broadcastInDim S2048x11008 ![] bcast_S_S2048x11008 (constantI S_ 32 8#32)))⟩]
              concatenates_S2048x1x11008_S2048x1x11008_S2048x2x11008_d1)
            shapeCasts_S2048x2x11008_S4096x11008))
        shapeCasts_S4096x11008_S32x128x11008)
      (broadcastInDim S32x128x11008 ![0, 1, 2] bcast_S32x1x11008_S32x128x11008_0_1_2
        (broadcastInDim S32x1x11008 ![0, 2] bcast_S32x11008_S32x1x11008_0_2 Sc)))
    shapeCasts_S32x128x11008_S4096x11008

/-- @_take's %5: each index, 4096 added where it is negative, as a column vector -/
def idx5 (c : IVec S4096 32) : IVec S4096x1 32 :=
  broadcastInDim S4096x1 ![0] bcast_S4096_S4096x1_0
    (select (cmpi .slt c (broadcastInDim S4096 ![] bcast_S_S4096 (constantI S_ 32 0#32)))
      (addi c (broadcastInDim S4096 ![] bcast_S_S4096 (constantI S_ 32 4096#32))) c)

/-- @_take's %12: per index, whether the wrapped index lies in [0, 4095] -/
def inb (c : IVec S4096 32) : IVec S4096 1 :=
  Host.reduce IntOp.andi
    (andi (cmpi .sge (idx5 c) (broadcastInDim S4096x1 ![] bcast_S_S4096x1 (constantI S_ 32 0#32)))
      (cmpi .sle (idx5 c) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_

/-- @_take's result %16 as a function of its two arguments: the columns of Xm taken at the (wrapped) indices, NaN where an index is out of range -/
def taken (Xm : FVec Ideal S8192x4096 .f32) (c : IVec S4096 32) : FVec Ideal S8192x4096 .f32 :=
  select (broadcastInDim S8192x4096 ![1] bcast_S4096_S8192x4096_1 (inb c))
    (Host.gather gather_S8192x4096_S4096x1_S8192x4096_0_1_n_n_1_1_81921 Xm (idx5 c))
    (broadcastInDim S8192x4096 ![] bcast_S_S8192x4096 (constant (F := Ideal) S_ .f32 0x7FC00000#32))

/-- the 2-D result %25 -/
def res2D (X : FVec Ideal S4x2048x4096 .f32) (c : IVec S4096 32) (P : IVec S2048x11008 32) (Sc : FVec Ideal S32x11008 .f32)
    (B : FVec Ideal S11008 .f32) : FVec Ideal S8192x11008 .f32 :=
  addf
    (Host.dotGeneral dot_S8192x4096_S4096x11008_S8192x11008_1_0_0_1_n_n none
      (taken (shapeCast S8192x4096 X shapeCasts_S4x2048x4096_S8192x4096) c) (Wr P Sc))
    (broadcastInDim S8192x11008 ![0, 1] bcast_S1x11008_S8192x11008_0_1 (broadcastInDim S1x11008 ![1] bcast_S11008_S1x11008_1 B))

set_option maxRecDepth 100000 in
set_option maxHeartbeats 1000000 in
/-- the fold of the operations at the result buffer is the composed term -/
theorem out_eq (V : Valuation τ sig (Elt Ideal)) :
    after (ops (F := Ideal)) V (main_v26 : DevRef τ sig)
      = shapeCast S4x2048x11008 (res2D (V (main_arg0 : DevRef τ sig)) (V (main_arg1 : DevRef τ sig)) (V (main_arg2 : DevRef τ sig)) (V (main_arg3 : DevRef τ sig)) (V (main_arg4 : DevRef τ sig))) shapeCasts_S8192x11008_S4x2048x11008 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxRecDepth 100000 in
/-- no operation writes argument 0 -/
theorem arg0_eq (V : Valuation τ sig (Elt Ideal)) :
    after (ops (F := Ideal)) V (main_arg0 : DevRef τ sig) = V (main_arg0 : DevRef τ sig) := by
  after_results_simp

set_option maxRecDepth 100000 in
/-- no operation writes argument 1 -/
theorem arg1_eq (V : Valuation τ sig (Elt Ideal)) :
    after (ops (F := Ideal)) V (main_arg1 : DevRef τ sig) = V (main_arg1 : DevRef τ sig) := by
  after_results_simp

set_option maxRecDepth 100000 in
/-- no operation writes argument 2 -/
theorem arg2_eq (V : Valuation τ sig (Elt Ideal)) :
    after (ops (F := Ideal)) V (main_arg2 : DevRef τ sig) = V (main_arg2 : DevRef τ sig) := by
  after_results_simp

set_option maxRecDepth 100000 in
/-- no operation writes argument 3 -/
theorem arg3_eq (V : Valuation τ sig (Elt Ideal)) :
    after (ops (F := Ideal)) V (main_arg3 : DevRef τ sig) = V (main_arg3 : DevRef τ sig) := by
  after_results_simp

set_option maxRecDepth 100000 in
/-- no operation writes argument 4 -/
theorem arg4_eq (V : Valuation τ sig (Elt Ideal)) :
    after (ops (F := Ideal)) V (main_arg4 : DevRef τ sig) = V (main_arg4 : DevRef τ sig) := by
  after_results_simp

/-- from any memory with zero counters, every weakly fair execution of the reference terminates with the result buffer at the
    composed term of the five argument buffers, restored to its three axes, and the arguments unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = shapeCast S4x2048x11008 (res2D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) shapeCasts_S8192x11008_S4x2048x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v26).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.Hand

end
-- ==== Proof.KernelHost.lean ====
/- The host side of the idealized kernel's program, read at the ideal instance (floats extended reals, changes
   of format the identity). Before the matrix product the program dequantises the packed weight (two signed
   four-bit values per word, times a scale per group of 128 rows), sets its rows into a zero array at the given
   row indices, pads the result and the bias by 256 zero columns, and flattens the activations to two axes; after
   the product it keeps the first 11008 columns and restores the three axes. This module names those host
   computations as functions of the argument arrays, proves that the three arrays the product reads hold them,
   and states the program's run with the result as the slice of the product's output array. -/
import proofs.«415435_j64330020159893_1_alg».proof.Proof.Gen.KernelIdeal.Frame
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.ShloMosaic.Tactic
open Idealize.ShloMosaic.StableHlo
open Idealize.SL Idealize.SL.Sem
open Facts₀ Facts

/-- the low four bits of each packed word, as a signed value in [-8, 8), with a unit middle axis (operations %0 … %3, %10) -/
def nibLo (P : IVec S2048x11008 32) : IVec S2048x1x11008 32 :=
  broadcastInDim S2048x1x11008 ![0, 2] bcast_S2048x11008_S2048x1x11008_0_2
    (subi (andi P (broadcastInDim S2048x11008 ![] bcast_S_S2048x11008 (constantI S_ 32 15#32)))
      (broadcastInDim S2048x11008 ![] bcast_S_S2048x11008 (constantI S_ 32 8#32)))

/-- the next four bits of each packed word, as a signed value in [-8, 8), with a unit middle axis (operations %4 … %9, %11) -/
def nibHi (P : IVec S2048x11008 32) : IVec S2048x1x11008 32 :=
  broadcastInDim S2048x1x11008 ![0, 2] bcast_S2048x11008_S2048x1x11008_0_2
    (subi (andi (Host.shrsi P (broadcastInDim S2048x11008 ![] bcast_S_S2048x11008 (constantI S_ 32 4#32)))
        (broadcastInDim S2048x11008 ![] bcast_S_S2048x11008 (constantI S_ 32 15#32)))
      (broadcastInDim S2048x11008 ![] bcast_S_S2048x11008 (constantI S_ 32 8#32)))

/-- the dequantised weight: operations %0 … %19 of @main composed, as a function of the packed words and the scales -/
def Wk (P : IVec S2048x11008 32) (Sc : FVec Ideal S32x11008 .f32) : FVec Ideal S4096x11008 .f32 :=
  shapeCast S4096x11008
    (mulf
      (shapeCast S32x128x11008
        (sitofp .f32
          (shapeCast S4096x11008
            (concatenate S2048x2x11008 1
              [⟨S2048x1x11008, broadcastInDim S2048x1x11008 ![0, 2] bcast_S2048x11008_S2048x1x11008_0_2
                  (subi (andi P (broadcastInDim S2048x11008 ![] bcast_S_S2048x11008 (constantI S_ 32 15#32)))
                    (broadcastInDim S2048x11008 ![] bcast_S_S2048x11008 (constantI S_ 32 8#32)))⟩,
               ⟨S2048x1x11008, broadcastInDim S2048x1x11008 ![0, 2] bcast_S2048x11008_S2048x1x11008_0_2
                  (subi (andi (Host.shrsi P (broadcastInDim S2048x11008 ![] bcast_S_S2048x11008 (constantI S_ 32 4#32)))
                      (broadcastInDim S2048x11008 ![] bcast_S_S2048x11008 (constantI S_ 32 15#32)))
                    (broadcastInDim S2048x11008 ![] bcast_S_S2048x11008 (constantI S_ 32 8#32)))⟩]
              concatenates_S2048x1x11008_S2048x1x11008_S2048x2x11008_d1)
            shapeCasts_S2048x2x11008_S4096x11008))
        shapeCasts_S4096x11008_S32x128x11008)
      (broadcastInDim S32x128x11008 ![0, 1, 2] bcast_S32x1x11008_S32x128x11008_0_1_2
        (broadcastInDim S32x1x11008 ![0, 2] bcast_S32x11008_S32x1x11008_0_2 Sc)))
    shapeCasts_S32x128x11008_S4096x11008

/-- the scatter's index column: the indices with negative ones wrapped by 4096, as a [4096,1] array (operations %21 … %26) -/
def idxK (c : IVec S4096 32) : IVec S4096x1 32 :=
  broadcastInDim S4096x1 ![0] bcast_S4096_S4096x1_0
    (select (cmpi .slt c (broadcastInDim S4096 ![] bcast_S_S4096 (constantI S_ 32 0#32)))
      (addi c (broadcastInDim S4096 ![] bcast_S_S4096 (constantI S_ 32 4096#32))) c)

/-- the re-ordered weight: the rows of the dequantised weight set into a zero array at the indices (operation %27) -/
def Wre (c : IVec S4096 32) (P : IVec S2048x11008 32) (Sc : FVec Ideal S32x11008 .f32) : FVec Ideal S4096x11008 .f32 :=
  Host.scatter scatter_S4096x11008_S4096x1_S4096x11008_1_0_0_1 (fun _ b => b)
    (broadcastInDim S4096x11008 ![] bcast_S_S4096x11008 (constant (F := Ideal) S_ .f32 0x00000000#32)) (idxK c) (Wk P Sc)

/-- the activation array as the region finds it: the argument recast to two axes (its change of format the identity's spelling) -/
theorem V_v33 (m : (ℓ : Loc nD τ sig) → Buf (Elt Ideal) ℓ) (c : Dev nD) :
    Gen.V (F := Ideal) m c main_v33
      = (truncf .bf16 (shapeCast S8192x4096 (m ((c.tc : Thread nD τ).loc main_arg0) : FVec Ideal S4x2048x4096 .f32) shapeCasts_S4x2048x4096_S8192x4096) bitsLt_bf16_f32 : FVec Ideal S8192x4096 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 1000000 in
/-- the weight array as the region finds it: the re-ordered weight padded by 256 zero columns -/
theorem V_v29 (m : (ℓ : Loc nD τ sig) → Buf (Elt Ideal) ℓ) (c : Dev nD) :
    Gen.V (F := Ideal) m c main_v29
      = (pad S4096x11264 ![0, 0] ![0, 256] ![0, 0]
          (truncf .bf16 (Wre (m ((c.tc : Thread nD τ).loc main_arg1)) (m ((c.tc : Thread nD τ).loc main_arg2)) (m ((c.tc : Thread nD τ).loc main_arg3))) bitsLt_bf16_f32)
          (sitofp (F := Ideal) .bf16 (constantI S_ 32 0#32)) pads_S4096x11008_S4096x11264_000_02560 h_S_ : FVec Ideal S4096x11264 .bf16) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  simp only [after_cons, after_nil]
  -- the buffers at three moments: the two four-bit columns formed (through %11), the weight dequantised
  -- (through %19), the rows set at the indices (through %27)
  generalize hA : (StableHlo.unary main_v9 main_v11 _ _ _ : HloOp τ sig (Elt Ideal)).result _ = WA
  generalize hB : (StableHlo.reshape main_v18 main_v19 _ _ _ _ : HloOp τ sig (Elt Ideal)).result _ = WB
  generalize hC : (StableHlo.ternary main_v20 main_v26 main_v19 main_v27 _ _ _ _ _ : HloOp τ sig (Elt Ideal)).result _ = WC
  have e10 : WA (Proc.devRef .tc main_v10) = nibLo (m ((c.tc : Thread nD τ).loc main_arg2)) := by
    subst hA
    after_results_simp
    rfl
  have e11 : WA (Proc.devRef .tc main_v11) = nibHi (m ((c.tc : Thread nD τ).loc main_arg2)) := by
    subst hA
    after_results_simp
    rfl
  have eA1 : WA (Proc.devRef .tc main_arg1) = m ((c.tc : Thread nD τ).loc main_arg1) := by
    subst hA
    after_results_simp
  have eA3 : WA (Proc.devRef .tc main_arg3) = m ((c.tc : Thread nD τ).loc main_arg3) := by
    subst hA
    after_results_simp
  clear hA
  have eB19 : WB (Proc.devRef .tc main_v19)
      = Wk (m ((c.tc : Thread nD τ).loc main_arg2)) (m ((c.tc : Thread nD τ).loc main_arg3)) := by
    subst hB
    after_results_simp
    rw [e10, e11, eA3]
    rfl
  have eB1 : WB (Proc.devRef .tc main_arg1) = m ((c.tc : Thread nD τ).loc main_arg1) := by
    subst hB
    after_results_simp
    exact eA1
  clear hB
  have eC27 : WC (Proc.devRef .tc main_v27)
      = Wre (m ((c.tc : Thread nD τ).loc main_arg1)) (m ((c.tc : Thread nD τ).loc main_arg2)) (m ((c.tc : Thread nD τ).loc main_arg3)) := by
    subst hC
    after_results_simp
    rw [eB19, eB1]
    rfl
  clear hC
  after_results_simp
  -- what is left: the padded array is written to, and the converted weight, the pad value and the zero it is
  -- converted from are read from, buffers whose types are those values' own types, so each such move is the
  -- identity; below them both sides are the pad of the converted weight by the converted zero, and the weight at
  -- the third moment is the re-ordered weight
  refine (cast_eq _ _).trans ?_
  refine congrArg₂ (fun (A : FVec Ideal S4096x11008 .bf16) (v : FVec Ideal S_ .bf16) =>
    pad S4096x11264 ![0, 0] ![0, 256] ![0, 0] A v pads_S4096x11008_S4096x11264_000_02560 h_S_) ?_ ?_
  · refine (cast_eq _ _).trans ?_
    exact congrArg (fun X => truncf .bf16 X bitsLt_bf16_f32) eC27
  · refine (cast_eq _ _).trans ((cast_eq _ _).trans ?_)
    exact congrArg (sitofp (F := Ideal) .bf16) (cast_eq _ _)

/-- the bias array as the region finds it: the bias padded by 256 zeros, as one row -/
theorem V_v31 (m : (ℓ : Loc nD τ sig) → Buf (Elt Ideal) ℓ) (c : Dev nD) :
    Gen.V (F := Ideal) m c main_v31
      = (shapeCast S1x11264 (pad S11264 ![0] ![256] ![0] (m ((c.tc : Thread nD τ).loc main_arg4) : FVec Ideal S11008 .f32)
          (sitofp (F := Ideal) .f32 (constantI S_ 32 0#32)) pads_S11008_S11264_02560 h_S_) shapeCasts_S11264_S1x11264 : FVec Ideal S1x11264 .f32) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- the result buffer after the lines that follow the product: the first 11008 columns of the product's output array, recast to three axes -/
theorem tail_v36 (m : (ℓ : Loc nD τ sig) → Buf (Elt Ideal) ℓ) (c : Dev nD) :
    Pipeline.afterTail₀ cfgs (Gen.dats (F := Ideal) m) 0 (Gen.V0 m) [Gen.hostOps1] c main_v36
      = (shapeCast S4x2048x11008 (extractStridedSlice S8192x11008 ![0, 0] ((Gen.dats (F := Ideal) m 0 c).arrAt 3 cfg0.N : FVec Ideal S8192x11264 .f32) slices_S8192x11264_S8192x11008_0_0) shapeCasts_S8192x11008_S4x2048x11008 : FVec Ideal S4x2048x11008 .f32) := by
  unfold Pipeline.afterTail₀
  show StableHlo.after Gen.hostOps1 _ (Proc.devRef .tc main_v36) = _
  after_results
  rw [Pipeline.withArrays_arr spec0 Gen.launch0.win.arr_inj c _ _ 3]
  rfl

/-- the program's run: the result is the first 11008 columns of the region's output array, recast to three axes; the arguments are unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36)
        = (shapeCast S4x2048x11008 (extractStridedSlice S8192x11008 ![0, 0] ((Gen.dats (F := Ideal) m 0 c).arrAt 3 cfg0.N : FVec Ideal S8192x11264 .f32) slices_S8192x11264_S8192x11008_0_0) shapeCasts_S8192x11008_S4x2048x11008 : FVec Ideal S4x2048x11008 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v36 (Pipeline.mem_restRefs_of main_v36 (by decide) (by decide))).trans (tail_v36 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩)
    (Gen.run_main m ρ)

end Cert.KernelIdeal.Hand
end
-- ==== Proof.Spec.lean ====
/-
  The mathematics the two programs share, stated once over plain index functions and the extended reals.

  The reference multiplies the matrix whose column k is column c(k) of X against W and adds a bias; the kernel
  multiplies X itself against a matrix whose row c(k) is row k of W. When c, read as a map of the 4096 positions
  to the 4096 columns, is a bijection — every index in range, no index at two positions — the two products are
  one sum with its terms in another order: ∑ j, X[p, j] · W'[j, n] = ∑ k, X[p, c k] · W'[c k, n] = ∑ k, X[p, c k] · W[k, n].
  Only commutativity and associativity of the sum are used, so nothing is asked of the entries: they may be infinite.
-/
import Idealize.ShloMosaic.PureOps.Ideal
import Idealize.ShloMosaic.Lib.ValueIdx
import Mathlib.Data.Fintype.Card
import Mathlib.Algebra.BigOperators.Group.Finset.Basic

noncomputable section

open scoped BigOperators

namespace Cert.Spec

open Idealize.ShloMosaic Idealize.ShloMosaic.ValueIdx

/-- Every index, read as a signed integer, lies in [0, 4096). -/
def InRange (c : IVec (⟨1, ![4096]⟩ : Shape) 32) : Prop :=
  ∀ k : Fin 4096, 0 ≤ (c (ix1 k)).toInt ∧ (c (ix1 k)).toInt < 4096

/-- No index occurs at two positions. -/
def Distinct (c : IVec (⟨1, ![4096]⟩ : Shape) 32) : Prop :=
  ∀ k k' : Fin 4096, c (ix1 k) = c (ix1 k') → k = k'

/-- The column that position k names: the index read signed and clamped into [0, 4095]. -/
def col (c : IVec (⟨1, ![4096]⟩ : Shape) 32) (k : Fin 4096) : Fin 4096 :=
  ⟨min (c (ix1 k)).toInt.toNat 4095, by omega⟩

/-- In range, the clamp does nothing: the column is the index itself. -/
theorem col_val {c : IVec (⟨1, ![4096]⟩ : Shape) 32} (hr : InRange c) (k : Fin 4096) :
    ((col c k).val : Int) = (c (ix1 k)).toInt := by
  have h := hr k
  show ((min (c (ix1 k)).toInt.toNat 4095 : Nat) : Int) = _
  omega

/-- In range and without repeats, positions name different columns. -/
theorem col_injective {c : IVec (⟨1, ![4096]⟩ : Shape) 32} (hr : InRange c) (hd : Distinct c) :
    Function.Injective (col c) := by
  intro k k' h
  refine hd k k' (BitVec.eq_of_toInt_eq ?_)
  rw [← col_val hr k, ← col_val hr k', h]

/-- Hence every column is named by some position: an injection of a finite set into itself is onto. -/
theorem col_bijective {c : IVec (⟨1, ![4096]⟩ : Shape) 32} (hr : InRange c) (hd : Distinct c) :
    Function.Bijective (col c) :=
  ⟨col_injective hr hd, Finite.injective_iff_surjective.mp (col_injective hr hd)⟩

/-- The positions and the columns in bijection. -/
def colEquiv {c : IVec (⟨1, ![4096]⟩ : Shape) 32} (hr : InRange c) (hd : Distinct c) : Fin 4096 ≃ Fin 4096 :=
  Equiv.ofBijective (col c) (col_bijective hr hd)

/-- Entry (p, n) of the gathered product: row p of X with its columns taken in the order c, against column n of W,
    plus the bias at n. -/
def gatheredAt (X : (⟨2, ![8192, 4096]⟩ : Shape).Idx → EReal) (c : IVec (⟨1, ![4096]⟩ : Shape) 32)
    (W : (⟨2, ![4096, 11008]⟩ : Shape).Idx → EReal) (B : (⟨1, ![11008]⟩ : Shape).Idx → EReal)
    (p : Fin 8192) (n : Fin 11008) : EReal :=
  (∑ k : Fin 4096, X (ix2 p (col c k)) * W (ix2 k n)) + B (ix1 n)

/-- If row (c k) of W' is row k of W, the plain product of X with W' is the gathered product of X with W: the sum
    over the columns j re-indexed along the bijection k ↦ c k. -/
theorem plain_eq_gathered {c : IVec (⟨1, ![4096]⟩ : Shape) 32} (hr : InRange c) (hd : Distinct c)
    (X : (⟨2, ![8192, 4096]⟩ : Shape).Idx → EReal) (W W' : (⟨2, ![4096, 11008]⟩ : Shape).Idx → EReal)
    (B : (⟨1, ![11008]⟩ : Shape).Idx → EReal)
    (hW : ∀ (k : Fin 4096) (n : Fin 11008), W' (ix2 (col c k) n) = W (ix2 k n)) (p : Fin 8192) (n : Fin 11008) :
    (∑ j : Fin 4096, X (ix2 p j) * W' (ix2 j n)) + B (ix1 n) = gatheredAt X c W B p n := by
  unfold gatheredAt
  congr 1
  rw [← Equiv.sum_comp (colEquiv hr hd) (fun j => X (ix2 p j) * W' (ix2 j n))]
  refine Finset.sum_congr rfl fun k _ => ?_
  show X (ix2 p (col c k)) * W' (ix2 (col c k) n) = _
  rw [hW]

end Cert.Spec

end
-- ==== Proof.PreDecode.lean ====
/-
  The precondition of the claim, read back. The printed predicate is a conjunction of five tests on the inputs; its last
  two speak of the index vector c alone: every entry of c, read as a signed integer, lies in [0, 4096), and for any two
  positions k, k' either c k ≠ c k' or the positions' own numbers agree. This file turns "the predicate is true" into
  these two arithmetic facts, each read at one symbolic position: a conjunction that is 1 has both conjuncts 1, a
  reduction by "and" that is 1 met only 1s, and a comparison that is 1 says its relation of the two words compared.
  Nothing is evaluated over the 4096 positions or the 4096 × 4096 pairs.
-/
import proofs.«415435_j64330020159893_1_alg».proof.Pre_finite_inputs
import proofs.«415435_j64330020159893_1_alg».proof.Proof.Gen.Pre_finite_inputs
import proofs.«415435_j64330020159893_1_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- A rank-1 index built from its coordinate either way is the same index. -/
theorem ofFin_eq_ix1 {n : Nat} (k : Fin n) : Shape.Idx.ofFin k = ix1 k := by
  funext d; match d with | ⟨0, _⟩ => rfl

/-- Two positions below 4096 whose numbers agree as 32-bit words are the same position. -/
theorem eq_of_ofNat_eq {k k' : Fin 4096} (e : BitVec.ofNat 32 k.val = BitVec.ofNat 32 k'.val) : k = k' := by
  have e' := congrArg BitVec.toNat e
  simp only [BitVec.toNat_ofNat] at e'
  have hk := k.isLt
  have hk' := k'.isLt
  apply Fin.ext
  omega

/-- the precondition's fourth conjunct: every index is in range -/
theorem inRange_of_pre (a0 : FVec Ideal S4x2048x4096 .f32) (c : IVec S4096 32) (a2 : IVec S2048x11008 32)
    (a3 : FVec Ideal S32x11008 .f32) (a4 : FVec Ideal S11008 .f32)
    (h : Cert.Pre_finite_inputs.fn (F := Ideal) a0 c a2 a3 a4 = (fun _ => 1#1)) : Cert.Spec.InRange c := by
  have h0 := congrFun h ix0
  dsimp only [Cert.Pre_finite_inputs.fn, Cert.Pre_finite_inputs.fn_part1] at h0
  -- the predicate is ((finite ∧ range) ∧ distinct): keep the range test, a reduction by "and" over the positions
  obtain ⟨h45, _⟩ := IntOp.andi_eq_one.1 h0
  obtain ⟨_, h4⟩ := IntOp.andi_eq_one.1 h45
  intro k
  -- a reduction by "and" that is 1 met a 1 at position k
  have hk := Host.reduce_andi_all _ _ _ _ ix0 h4 (ix1 k)
  obtain ⟨hge, hlt⟩ := IntOp.andi_eq_one.1 hk
  -- the two comparisons at k, against the constants 0 and 4096 laid along the vector
  have hge' := IntOp.cmpi_sge.1 hge
  have hlt' := IntOp.cmpi_slt.1 hlt
  have z : (0#32 : BitVec 32).toInt = 0 := by decide
  have t : (4096#32 : BitVec 32).toInt = 4096 := by decide
  exact ⟨z ▸ hge', t ▸ hlt'⟩

/-- its fifth: two positions that hold the same index are the same position -/
theorem distinct_of_pre (a0 : FVec Ideal S4x2048x4096 .f32) (c : IVec S4096 32) (a2 : IVec S2048x11008 32)
    (a3 : FVec Ideal S32x11008 .f32) (a4 : FVec Ideal S11008 .f32)
    (h : Cert.Pre_finite_inputs.fn (F := Ideal) a0 c a2 a3 a4 = (fun _ => 1#1)) : Cert.Spec.Distinct c := by
  have h0 := congrFun h ix0
  dsimp only [Cert.Pre_finite_inputs.fn, Cert.Pre_finite_inputs.fn_part1] at h0
  -- keep the last conjunct, a reduction by "and" over the pairs of positions
  obtain ⟨_, h5⟩ := IntOp.andi_eq_one.1 h0
  intro k k' hc
  -- it met a 1 at the pair (k, k')
  have hkk := Host.reduce_andi_all _ _ _ _ ix0 h5 (StableHlo.Predicate.ij k k')
  rcases IntOp.ori_eq_one.1 hkk with hne | heq
  · -- c k ≠ c k' contradicts the hypothesis
    have hne' := IntOp.cmpi_ne.1 hne
    rw [StableHlo.Predicate.bcast_rows, StableHlo.Predicate.bcast_cols, ofFin_eq_ix1, ofFin_eq_ix1] at hne'
    exact absurd hc hne'
  · -- the positions' numbers agree
    have heq' := IntOp.cmpi_eq.1 heq
    rw [StableHlo.Predicate.bcast_rows, StableHlo.Predicate.bcast_cols, StableHlo.Predicate.iota_apply,
      StableHlo.Predicate.iota_apply] at heq'
    exact eq_of_ofNat_eq heq'

/-- info: 'Cert.PreDecode.inRange_of_pre' depends on axioms: [propext, Classical.choice, Quot.sound] -/
#guard_msgs (whitespace := lax) in #print axioms inRange_of_pre

/-- info: 'Cert.PreDecode.distinct_of_pre' depends on axioms: [propext, Classical.choice, Quot.sound] -/
#guard_msgs (whitespace := lax) in #print axioms distinct_of_pre

end Cert.PreDecode

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibColGather.lean ====
/-
  A host gather of columns, read at an entry.

  Taking columns of a matrix x : [M, N] at an integer vector of K column numbers (what a "take along axis 1" lowers
  to) is a gather whose slices are whole columns: offset axis 0 (the M rows of a slice), collapsed axis 1, the start
  index naming the column. Entry (p, k) of the result is row p of x at the column that start index k names, read as a
  signed integer and clamped into [0, N − 1].
-/
import Idealize.ShloMosaic.PureOps
import Idealize.ShloMosaic.Lib.ValueIdx

noncomputable section

namespace Cert.LibColGather

open Idealize.ShloMosaic Idealize.ShloMosaic.ValueIdx

/-- The dimension numbers of a gather of K whole columns out of an [M, N] matrix: start indices [K, 1], result [M, K]. -/
abbrev colsDims (M N K : Nat) (wf : GatherDims.WF ⟨2, ![M, N]⟩ ⟨2, ![K, 1]⟩ ⟨2, ![M, K]⟩ [0] [1] [] [1] [] 1 ![M, 1]) :
    GatherDims ⟨2, ![M, N]⟩ ⟨2, ![K, 1]⟩ ⟨2, ![M, K]⟩ where
  offsetDims := [0]
  collapsedSliceDims := [1]
  operandBatchingDims := []
  startIndicesBatchingDims := []
  startIndexMap := [1]
  indexVectorDim := 1
  sliceSizes := ![M, 1]
  wf := wf

/-- THE COLUMN GATHER READ AT (p, k): row p of the operand at the column that start index k names, read signed and
    clamped into [0, N − 1]. -/
theorem gather_cols_apply {M N K w : Nat} (hN : 0 < N)
    (wf : GatherDims.WF ⟨2, ![M, N]⟩ ⟨2, ![K, 1]⟩ ⟨2, ![M, K]⟩ [0] [1] [] [1] [] 1 ![M, 1]) {α : Type}
    (x : (⟨2, ![M, N]⟩ : Shape).Idx → α) (idx : IVec ⟨2, ![K, 1]⟩ w) (p : Fin M) (k : Fin K) :
    Host.gather (colsDims M N K wf) x idx (ix2 p k) =
      x (ix2 p ⟨min (idx (ix2 k (0 : Fin 1))).toInt.toNat (N - 1), by omega⟩) := by
  unfold Host.gather
  congr 1
  funext a
  refine Fin.ext ?_
  match a with
  | ⟨0, _⟩ =>
    show (colsDims M N K wf).start (ix2 p k) idx 0 + (colsDims M N K wf).batchCoord (ix2 p k) 0
      + (colsDims M N K wf).offCoord (ix2 p k) 0 = p.val
    rw [GatherDims.batchCoord_eq_zero _ _ _ List.not_mem_nil]
    unfold GatherDims.start
    have h01 : (0 : Fin 2) ∉ ([1] : List (Fin 2)) := by decide
    rw [dif_neg (show (0 : Fin 2) ∉ (colsDims M N K wf).startIndexMap from h01)]
    unfold GatherDims.offCoord
    rw [dif_pos (show (0 : Fin 2) ∈ (colsDims M N K wf).sKept from
      (GatherDims.mem_sKept _ _).mpr ⟨h01, List.not_mem_nil⟩)]
    have hoff : ∀ (i : Nat) (hi : i < (colsDims M N K wf).offsetDims.length),
        (colsDims M N K wf).offsetDims[i] = (0 : Fin 2) := by
      intro i hi
      have hi' : i < 1 := hi
      obtain rfl : i = 0 := by omega
      rfl
    rw [hoff]
    show 0 + 0 + p.val = p.val
    omega
  | ⟨1, _⟩ =>
    show (colsDims M N K wf).start (ix2 p k) idx 1 + (colsDims M N K wf).batchCoord (ix2 p k) 1
      + (colsDims M N K wf).offCoord (ix2 p k) 1 = min (idx (ix2 k (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims M N K wf).startIndexMap from List.mem_singleton.mpr rfl)]
    have hsi : (colsDims M N K wf).siIdx (ix2 p k) ⟨List.idxOf (1 : Fin 2) (colsDims M N K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

end Cert.LibColGather

end
-- ==== Proof.LibIndexWrap.lean ====
/-
  An index vector's normalisation and in-bounds mask, at indices that are already in range.

  An array lookup first normalises its indices — a negative index i is read as i + K, written
  select (i < 0) (i + K) i — then masks the lookups whose normalised index lies outside [0, K − 1]. At an index
  vector whose entries all lie in [0, K) neither does anything: the select returns the indices themselves (the
  comparison with zero is false at every entry), and the mask — the "and" across the unit axis of
  (0 ≤ i) and (i ≤ K − 1), taken on the indices laid out as a column [K, 1] — is one at every entry.
-/
import Idealize.ShloMosaic.PureOps
import Idealize.ShloMosaic.Lib.ValueIdx
import Idealize.ShloMosaic.Lib.StableHlo.Predicate
import Idealize.ShloMosaic.Lib.ReduceAll

noncomputable section

namespace Cert.LibIndexWrap

open Idealize.ShloMosaic Idealize.ShloMosaic.ValueIdx

/-- A non-negative index is not wrapped: select (c < 0) a c is c, whatever the replacement a (for a lookup it is
    c + K). -/
theorem wrap_eq' {K : Nat} (c a : IVec ⟨1, ![K]⟩ 32) (hr : ∀ k : Fin K, 0 ≤ (c (ix1 k)).toInt)
    (hb : (⟨0, ![]⟩ : Shape).BroadcastsInDim ⟨1, ![K]⟩ ![]) :
    select (cmpi .slt c (broadcastInDim ⟨1, ![K]⟩ ![] hb (constantI ⟨0, ![]⟩ 32 0#32))) a c = c := by
  funext j
  obtain ⟨k, rfl⟩ : ∃ k : Fin K, j = ix1 k := ⟨j 0, eq_ix1 j⟩
  show Scalar.select (IntOp.cmpi .slt (c (ix1 k)) 0#32) (a (ix1 k)) (c (ix1 k)) = c (ix1 k)
  have hne : ¬ IntOp.cmpi .slt (c (ix1 k)) 0#32 = 1#1 := by
    rw [IntOp.cmpi_slt]
    have h0 : (0#32).toInt = 0 := by decide
    have := hr k
    omega
  exact if_neg hne

/-- A non-negative index is not wrapped: select (c < 0) (c + K) c is c. -/
theorem wrap_eq {K : Nat} (c : IVec ⟨1, ![K]⟩ 32) (hr : ∀ k : Fin K, 0 ≤ (c (ix1 k)).toInt ∧ (c (ix1 k)).toInt < K)
    (hb hb' : (⟨0, ![]⟩ : Shape).BroadcastsInDim ⟨1, ![K]⟩ ![]) :
    select (cmpi .slt c (broadcastInDim ⟨1, ![K]⟩ ![] hb (constantI ⟨0, ![]⟩ 32 0#32)))
      (addi c (broadcastInDim ⟨1, ![K]⟩ ![] hb' (constantI ⟨0, ![]⟩ 32 (BitVec.ofNat 32 K)))) c = c :=
  wrap_eq' c _ (fun k => (hr k).1) hb

/-- As a column [K, 1]: entry (k, 0) of the broadcast of c along axis 0 is c k. -/
theorem col_apply {K w : Nat} (c : IVec ⟨1, ![K]⟩ w)
    (hb1 : (⟨1, ![K]⟩ : Shape).BroadcastsInDim ⟨2, ![K, 1]⟩ ![0]) (k : Fin K) :
    broadcastInDim ⟨2, ![K, 1]⟩ ![0] hb1 c (ix2 k (0 : Fin 1)) = c (ix1 k) := by
  unfold broadcastInDim
  refine congrArg c (funext fun a => Fin.ext ?_)
  obtain rfl : a = 0 := Subsingleton.elim _ _
  have hk := k.isLt
  by_cases h1 : (⟨1, ![K]⟩ : Shape).size 0 = 1
  · rw [dif_pos h1]
    have hK1 : K = 1 := h1
    show (0 : Nat) = k.val
    omega
  · rw [dif_neg h1]
    rfl

/-- The column of the normalised indices reads, at (k, 0), the index c k itself. -/
theorem wrapped_col_apply {K : Nat} (c : IVec ⟨1, ![K]⟩ 32)
    (hr : ∀ k : Fin K, 0 ≤ (c (ix1 k)).toInt ∧ (c (ix1 k)).toInt < K)
    (hb hb' : (⟨0, ![]⟩ : Shape).BroadcastsInDim ⟨1, ![K]⟩ ![])
    (hb1 : (⟨1, ![K]⟩ : Shape).BroadcastsInDim ⟨2, ![K, 1]⟩ ![0]) (k : Fin K) :
    broadcastInDim ⟨2, ![K, 1]⟩ ![0] hb1
      (select (cmpi .slt c (broadcastInDim ⟨1, ![K]⟩ ![] hb (constantI ⟨0, ![]⟩ 32 0#32)))
        (addi c (broadcastInDim ⟨1, ![K]⟩ ![] hb' (constantI ⟨0, ![]⟩ 32 (BitVec.ofNat 32 K)))) c)
      (ix2 k (0 : Fin 1)) = c (ix1 k) := by
  rw [wrap_eq c hr hb hb', col_apply]

/-- A left fold by "and" from one over a list whose entries are all one is one. -/
theorem foldl_andi_ones {ι : Type} (f : ι → BitVec 1) :
    ∀ l : List ι, (∀ n ∈ l, f n = 1#1) → l.foldl (fun r n => IntOp.andi r (f n)) 1#1 = 1#1
  | [], _ => rfl
  | n :: l, h => by
    rw [List.foldl_cons, h n (List.mem_cons_self ..)]
    exact foldl_andi_ones f l (fun m hm => h m (List.mem_cons_of_mem _ hm))

/-- The in-bounds mask of a column of indices that lie in [0, hi] is one at every entry: the "and" across the unit
    axis of (0 ≤ i) and (i ≤ hi). -/
theorem mask_apply' {K : Nat} (i5 : IVec ⟨2, ![K, 1]⟩ 32) (hi : BitVec 32)
    (h5 : ∀ k : Fin K, 0 ≤ (i5 (ix2 k (0 : Fin 1))).toInt ∧ (i5 (ix2 k (0 : Fin 1))).toInt ≤ hi.toInt)
    (h6 : (⟨0, ![]⟩ : Shape).BroadcastsInDim ⟨2, ![K, 1]⟩ ![])
    (h8 : (⟨1, ![1]⟩ : Shape).BroadcastsInDim ⟨2, ![1, 1]⟩ ![1])
    (h9 : (⟨2, ![1, 1]⟩ : Shape).BroadcastsInDim ⟨2, ![K, 1]⟩ ![0, 1])
    (hred : (⟨2, ![K, 1]⟩ : Shape).ReducesTo [1] ⟨1, ![K]⟩) (hS : 0 < (⟨0, ![]⟩ : Shape).numel) (k : Fin K) :
    (Host.reduce IntOp.andi
      (andi (cmpi .sge i5 (broadcastInDim ⟨2, ![K, 1]⟩ ![] h6 (constantI ⟨0, ![]⟩ 32 0#32)))
        (cmpi .sle i5 (broadcastInDim ⟨2, ![K, 1]⟩ ![0, 1] h9
          (broadcastInDim ⟨2, ![1, 1]⟩ ![1] h8 (constantI ⟨1, ![1]⟩ 32 hi)))))
      (constantI ⟨0, ![]⟩ 1 1#1) hred hS) (ix1 k) = 1#1 := by
  rw [Host.reduce_eq_foldl]
  refine foldl_andi_ones _ _ (fun i _ => ?_)
  obtain ⟨k', q, rfl⟩ : ∃ (k' : Fin K) (q : Fin 1), i = ix2 k' q := ⟨i 0, i 1, eq_ix2 i⟩
  obtain rfl : q = 0 := Subsingleton.elim _ _
  show IntOp.andi (IntOp.cmpi .sge (i5 (ix2 k' (0 : Fin 1))) 0#32) (IntOp.cmpi .sle (i5 (ix2 k' (0 : Fin 1))) hi) = 1#1
  have h0 : (0#32).toInt = 0 := by decide
  refine IntOp.andi_eq_one.2 ⟨IntOp.cmpi_sge.2 ?_, IntOp.cmpi_sle.2 (h5 k').2⟩
  rw [h0]
  exact (h5 k').1

/-- The in-bounds mask is all ones: with the indices c (all in [0, K)) laid out as a column, the "and" across the
    unit axis of (0 ≤ i) and (i ≤ K − 1) is one at every entry. -/
theorem mask_apply {K : Nat} (hK : K < 2 ^ 31) (c : IVec ⟨1, ![K]⟩ 32)
    (hr : ∀ k : Fin K, 0 ≤ (c (ix1 k)).toInt ∧ (c (ix1 k)).toInt < K)
    (hb1 : (⟨1, ![K]⟩ : Shape).BroadcastsInDim ⟨2, ![K, 1]⟩ ![0])
    (h6 : (⟨0, ![]⟩ : Shape).BroadcastsInDim ⟨2, ![K, 1]⟩ ![])
    (h8 : (⟨1, ![1]⟩ : Shape).BroadcastsInDim ⟨2, ![1, 1]⟩ ![1])
    (h9 : (⟨2, ![1, 1]⟩ : Shape).BroadcastsInDim ⟨2, ![K, 1]⟩ ![0, 1])
    (hred : (⟨2, ![K, 1]⟩ : Shape).ReducesTo [1] ⟨1, ![K]⟩) (hS : 0 < (⟨0, ![]⟩ : Shape).numel) (k : Fin K) :
    (Host.reduce IntOp.andi
      (andi (cmpi .sge (broadcastInDim ⟨2, ![K, 1]⟩ ![0] hb1 c)
          (broadcastInDim ⟨2, ![K, 1]⟩ ![] h6 (constantI ⟨0, ![]⟩ 32 0#32)))
        (cmpi .sle (broadcastInDim ⟨2, ![K, 1]⟩ ![0] hb1 c) (broadcastInDim ⟨2, ![K, 1]⟩ ![0, 1] h9
          (broadcastInDim ⟨2, ![1, 1]⟩ ![1] h8 (constantI ⟨1, ![1]⟩ 32 (BitVec.ofNat 32 (K - 1)))))))
      (constantI ⟨0, ![]⟩ 1 1#1) hred hS) (ix1 k) = 1#1 := by
  refine mask_apply' _ _ (fun k' => ?_) h6 h8 h9 hred hS k
  have hk' := k'.isLt
  rw [col_apply, StableHlo.Predicate.toInt_ofNat_small (K - 1) (by omega)]
  have := hr k'
  omega

end Cert.LibIndexWrap

end
-- ==== Proof.RefValue.lean ====
/-
  The reference's 2-D result read at one entry, on the extended reals, for an index vector in range.

  The reference takes the columns of the flattened activations X at the indices c, multiplies the taken matrix by the
  dequantised weight W and adds the bias b along the rows. Read at entry (p, n) this is
      (∑ k, X (p, col c k) * W (k, n)) + b n,
  where col c k is the column the k-th index names. Four facts give it:
    * the host's plain matrix product at (p, n) is the sum over the one contracted axis of left (p, k) * right (k, n);
    * when every index lies in [0, 4096) nothing is negative, so the wrap-around of negative indices changes nothing,
      the in-bounds mask is on everywhere, so the fill value is never selected, and the gather's clamp into [0, 4095]
      is the clamp that col c k already carries: the taken matrix at (p, k) is X (p, col c k);
    * a vector laid as a one-row matrix and repeated over the rows reads, at (p, n), the vector at n;
    * the elementwise sum at (p, n) is the sum of the two entries.
  The weight is left as it stands: nothing here depends on how it is computed.
-/
import proofs.«415435_j64330020159893_1_alg».proof.Proof.RefRun
import proofs.«415435_j64330020159893_1_alg».proof.Proof.Spec
import proofs.«415435_j64330020159893_1_alg».proof.Proof.LibPlainDot
import proofs.«415435_j64330020159893_1_alg».proof.Proof.LibColGather
import proofs.«415435_j64330020159893_1_alg».proof.Proof.LibIndexWrap
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Idealize.ShloMosaic Idealize.ShloMosaic.ValueIdx

/-- the host's plain matrix product of an M x K by a K x N operand at an entry -/
theorem dotGeneral_plain (M K N : Nat) (L : FVec Ideal ⟨2, ![M, K]⟩ .f32) (R : FVec Ideal ⟨2, ![K, N]⟩ .f32) (a : Fin M) (j : Fin N) :
    Host.dotGeneral (DotDims.plain M K N) none L R (ix2 a j) = ∑ k : Fin K, L (ix2 a k) * R (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact Cert.LibPlainDot.plain_lhs_row M K N _ _
      | ⟨1, _⟩ => exact (Cert.LibPlainDot.plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (Cert.LibPlainDot.plain_rhs_row M K N _ _).trans hk
      | ⟨1, _⟩ => exact Cert.LibPlainDot.plain_rhs_col M K N _ _)
  rw [el, er]

/-- the host's plain matrix product at an entry: the sum over k of L (p, k) * R (k, n) -/
theorem dotGeneral_plain_apply (L : FVec Ideal S8192x4096 .f32) (R : FVec Ideal S4096x11008 .f32) (p : Fin 8192) (n : Fin 11008) :
    Host.dotGeneral dot_S8192x4096_S4096x11008_S8192x11008_1_0_0_1_n_n none L R (ix2 p n) = ∑ k : Fin 4096, L (ix2 p k) * R (ix2 k n) :=
  dotGeneral_plain 8192 4096 11008 L R p n

/-- the bias as a row repeated over the rows -/
theorem bias_apply (B : FVec Ideal S11008 .f32) (p : Fin 8192) (n : Fin 11008) :
    broadcastInDim S8192x11008 ![0, 1] bcast_S1x11008_S8192x11008_0_1 (broadcastInDim S1x11008 ![1] bcast_S11008_S1x11008_1 B) (ix2 p n) = B (ix1 n) := by
  rw [broadcastInDim_apply _ _ _ (ix2 p n) (ix2 (0 : Fin 1) n) (fun a => by
    match a with
    | ⟨0, _⟩ => rfl
    | ⟨1, _⟩ => rfl)]
  rw [broadcastInDim_apply _ _ _ (ix2 (0 : Fin 1) n) (ix1 n) (fun a => by
    match a with
    | ⟨0, _⟩ => rfl)]

/-- in range, the wrapped index column read at (k, 0) is the index at k: nothing is negative, so nothing is wrapped -/
theorem idx5_apply (c : IVec S4096 32) (hr : Cert.Spec.InRange c) (k : Fin 4096) :
    idx5 c (ix2 k (0 : Fin 1)) = c (ix1 k) := by
  unfold idx5
  rw [Cert.LibIndexWrap.col_apply]
  exact congrFun (Cert.LibIndexWrap.wrap_eq' c _ (fun k => (hr k).1) _) (ix1 k)

/-- in range, the in-bounds mask is on at every position -/
theorem inb_apply (c : IVec S4096 32) (hr : Cert.Spec.InRange c) (k : Fin 4096) : inb c (ix1 k) = 1#1 := by
  unfold inb
  exact Cert.LibIndexWrap.mask_apply' (idx5 c) 4095#32 (fun k => by
    rw [idx5_apply c hr k]
    have h := hr k
    have h4 : (4095#32 : BitVec 32).toInt = 4095 := by decide
    rw [h4]
    omega) _ _ _ _ _ k

/-- in range, the take reads column (col c k) of row p: the mask is on, the wrap and the clamp do nothing -/
theorem taken_apply (Xm : FVec Ideal S8192x4096 .f32) (c : IVec S4096 32) (hr : Cert.Spec.InRange c) (p : Fin 8192) (k : Fin 4096) :
    taken Xm c (ix2 p k) = Xm (ix2 p (Cert.Spec.col c k)) := by
  unfold taken
  rw [select_apply, broadcastInDim_apply _ _ _ (ix2 p k) (ix1 k) (fun a => by
    match a with
    | ⟨0, _⟩ => rfl)]
  rw [inb_apply c hr k, select_one]
  have hg : gather_S8192x4096_S4096x1_S8192x4096_0_1_n_n_1_1_81921
      = Cert.LibColGather.colsDims 8192 4096 4096 gather_S8192x4096_S4096x1_S8192x4096_0_1_n_n_1_1_81921_wf := rfl
  rw [hg, Cert.LibColGather.gather_cols_apply (by decide)]
  simp only [idx5_apply c hr k]
  rfl

/-- THE RESULT AT AN ENTRY -/
theorem res2D_apply (X : FVec Ideal S4x2048x4096 .f32) (c : IVec S4096 32) (P : IVec S2048x11008 32) (Sc : FVec Ideal S32x11008 .f32)
    (B : FVec Ideal S11008 .f32) (hr : Cert.Spec.InRange c) (p : Fin 8192) (n : Fin 11008) :
    res2D X c P Sc B (ix2 p n)
      = Cert.Spec.gatheredAt (shapeCast S8192x4096 X shapeCasts_S4x2048x4096_S8192x4096) c (Wr P Sc) B p n := by
  unfold res2D Cert.Spec.gatheredAt
  rw [addf_apply, dotGeneral_plain_apply, bias_apply]
  refine congrArg (· + B (ix1 n)) (Finset.sum_congr rfl fun k _ => ?_)
  rw [taken_apply _ c hr p k]

end Cert.ReferenceIdeal.Hand

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«415435_j64330020159893_1_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibRowBroadcast.lean ====
/-
  A row broadcast over rows, read at an entry.

  A row [1, N] broadcast to M rows [M, N] (a vector broadcast that repeats the one row) reads, at (a, j), the row's
  entry j: on the first axis the source has extent one, so its only coordinate 0 is read; on the second the
  coordinate is kept.
-/
import Idealize.ShloMosaic.Lib.ValueIdx
import Idealize.ShloMosaic.Lib.Pipeline.Value

noncomputable section

namespace Cert.LibRowBroadcast

open Idealize.ShloMosaic Idealize.ShloMosaic.ValueIdx

/-- A row [1, N] broadcast over M rows reads, at (a, j), the row's entry j. -/
theorem broadcast_row {α : Type} (M N : Nat) (b : (⟨2, ![1, N]⟩ : Shape).Idx → α)
    (hb : (⟨2, ![1, N]⟩ : Shape).Broadcasts ⟨2, ![M, N]⟩) (a : Fin M) (j : Fin N) :
    broadcastTo ⟨2, ![M, N]⟩ b hb (ix2 a j) = b (ix2 0 j) :=
  broadcastTo_apply b hb (ix2 a j) (ix2 0 j) (fun ax => by
    match ax with
    | ⟨0, _⟩ =>
      show 0 = if (1 : Nat) = 1 then 0 else a.val
      rw [if_pos rfl]
    | ⟨1, _⟩ =>
      show j.val = if N = 1 then 0 else j.val
      split
      · have := j.isLt; omega
      · rfl)

end Cert.LibRowBroadcast

end
-- ==== Proof.KernelBody.lean ====
/-
  One block of the product, read at an entry.

  The body loads a 512 x 4096 block of the left operand, a 4096 x 1024 block of the right operand and a 1 x 1024
  block of the bias row, multiplies the first two as matrices into the zero array, repeats the bias row over the 512
  rows and adds.  What it stores is therefore, at entry (p, q), the sum over j of left (p, j) * right (j, q), plus
  the bias row's entry q.  The store goes through the whole-block rectangle at zero offsets and the loads come
  through the same kind of rectangle, so the stored block is exactly that array of sums.
-/
import proofs.«415435_j64330020159893_1_alg».proof.Proof.Gen.KernelIdeal.Frame
import proofs.«415435_j64330020159893_1_alg».proof.Proof.LibPlainAny
import proofs.«415435_j64330020159893_1_alg».proof.Proof.LibRowBroadcast
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx

/-- The zero offsets of a whole-block rectangle, as the constant zero function. -/
theorem zero_offsets : (![0, 0] : Fin 2 → Nat) = fun _ => 0 := funext fun a => by fin_cases a <;> rfl

/-- The printed dimension numbers of the body's product are the plain ones: left contracted on its second axis,
    right on its first, no batch axis. -/
theorem dims_plain : dot_S512x4096_S4096x1024_S512x1024_1_0_0_1_n_n = DotDims.plain 512 4096 1024 := rfl

/-- The arithmetic of the body at entry (p, q): the product's sum over the contracted axis plus the bias entry. -/
theorem pay_apply (v0 : Vec Ideal S512x4096 .bf16) (v2 : Vec Ideal S4096x1024 .bf16) (v5 : Vec Ideal S1x1024 .f32)
    (p : Fin 512) (q : Fin 1024) :
    k0_pay1 (F := Ideal) v0 v2 v5 (ix2 p q) = (∑ j : Fin 4096, v0 (ix2 p j) * v2 (ix2 j q)) + v5 (ix2 (0 : Fin 1) q) := by
  unfold k0_pay1
  simp only [shapeCast_self]
  rw [addf_apply, dims_plain]
  refine congrArg₂ (· + ·) ?_ ?_
  · exact Cert.LibPlainAny.matmul_plain_zero_any 512 4096 1024 v0 v2 p q
  · exact Cert.LibRowBroadcast.broadcast_row 512 1024 v5 broadcasts_S1x1024_S512x1024 p q

/-- an entry of the block the body stores: row p of the first block against column q of the second, plus the bias row's entry q -/
theorem out0_3_apply (x0 : Vec Ideal S512x4096 .bf16) (x1 : Vec Ideal S4096x1024 .bf16) (x2 : Vec Ideal S1x1024 .f32) (p : Fin 512) (q : Fin 1024) :
    Gen.out0_3 (F := Ideal) x0 x1 x2 (ix2 p q) = (∑ j : Fin 4096, x0 (ix2 p j) * x1 (ix2 j q)) + x2 (ix2 (0 : Fin 1) q) := by
  unfold Gen.out0_3
  rw [View.canon_unit_zero zero_offsets]
  simp only [View.ld_unit_zero (S := S512x4096) zero_offsets, View.ld_unit_zero (S := S4096x1024) zero_offsets,
    View.ld_unit_zero (S := S1x1024) zero_offsets]
  exact pay_apply x0 x1 x2 p q

end Cert.KernelIdeal.Hand

end
-- ==== Proof.KernelArray.lean ====
/-
  The whole product array after the region.

  The grid has 16 x 11 points; point t = 11 * a + b stores the block of rows 512 a .. 512 a + 511 and columns
  1024 b .. 1024 b + 1023 of the output.  At that point the left operand's block is rows 512 a .. of the left array
  (all 4096 columns), the right operand's block is columns 1024 b .. of the right array (all 4096 rows), and the
  bias block is columns 1024 b .. of the bias row.  An entry of the stored block is a sum over the contracted axis
  plus a bias entry (the body's arithmetic), and since the contracted axis is whole in every block, that entry is
  the entry of the product of the whole arrays at the block's place.  The 176 blocks tile the output array (the
  block holding row r and column n is the one of point 11 * (r / 512) + n / 1024), so after the region the output
  array is the product of the left and right arrays plus the bias row, entry by entry.
-/
import proofs.«415435_j64330020159893_1_alg».proof.Proof.KernelBody
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-- the whole product array: entry (r, n) is row r of a against column n of b, plus d's entry n -/
def mm (a : FVec Ideal S8192x4096 .bf16) (b : FVec Ideal S4096x11264 .bf16) (d : FVec Ideal S1x11264 .f32) : FVec Ideal S8192x11264 .f32 :=
  fun i => (∑ j : Fin 4096, a (ix2 ⟨(i 0).val, idx2_lt0 i⟩ j) * b (ix2 j ⟨(i 1).val, idx2_lt1 i⟩)) + d (ix2 (0 : Fin 1) ⟨(i 1).val, idx2_lt1 i⟩)

/-- The product array at entry (r, n). -/
theorem mm_apply (a : FVec Ideal S8192x4096 .bf16) (b : FVec Ideal S4096x11264 .bf16) (d : FVec Ideal S1x11264 .f32) (r : Fin 8192) (n : Fin 11264) :
    mm a b d (ix2 r n) = (∑ j : Fin 4096, a (ix2 r j) * b (ix2 j n)) + d (ix2 (0 : Fin 1) n) := rfl

variable (m : (ℓ : Loc nD τ sig) → Buf (Elt Ideal) ℓ)

/-- The left, right and bias arrays as the region finds them, and their blocks at a grid point, at their literal types. -/
abbrev lhsArr (c : Dev nD) : FVec Ideal S8192x4096 .bf16 := V m c main_v33
abbrev rhsArr (c : Dev nD) : FVec Ideal S4096x11264 .bf16 := V m c main_v29
abbrev biasArr (c : Dev nD) : FVec Ideal S1x11264 .f32 := V m c main_v31
abbrev lhsBlk (c : Dev nD) (t : Fin cfg0.N) : Vec Ideal S512x4096 .bf16 := iblk m c 0 t
abbrev rhsBlk (c : Dev nD) (t : Fin cfg0.N) : Vec Ideal S4096x1024 .bf16 := iblk m c 1 t
abbrev biasBlk (c : Dev nD) (t : Fin cfg0.N) : Vec Ideal S1x1024 .f32 := iblk m c 2 t

/-- The block indices at point t = 11 a + b: the left block is block row a, the right and bias blocks are block
    column b, the output block is (a, b); the contracted axis is never cut. -/
theorem block_indices : ∀ t : Fin cfg0.N,
    win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11
    ∧ win0_3.index t (0 : Fin 2) = t.val / 11 ∧ win0_3.index t (1 : Fin 2) = t.val % 11 :=
  (by decide +kernel : ∀ t : Fin grid0.N, _)

/-- The left block at point t is rows 512 (t / 11) .. of the left array, every column. -/
theorem lhsBlk_apply (c : Dev nD) (t : Fin cfg0.N) (p : Fin 512) (j : Fin 4096) (r : Fin 8192)
    (hr : r.val = t.val / 11 * 512 + p.val) : lhsBlk m c t (ix2 p j) = lhsArr m c (ix2 r j) := by
  obtain ⟨e0, e1, -⟩ := block_indices t
  show V m c main_v33 (((cfg0.win 0).blk t).view.emb (ix2 p j)) = V m c main_v33 (ix2 r j)
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * j.val = j.val; rw [e1]; omega

/-- The right block at point t is columns 1024 (t % 11) .. of the right array, every row. -/
theorem rhsBlk_apply (c : Dev nD) (t : Fin cfg0.N) (j : Fin 4096) (q : Fin 1024) (n : Fin 11264)
    (hn : n.val = t.val % 11 * 1024 + q.val) : rhsBlk m c t (ix2 j q) = rhsArr m c (ix2 j n) := by
  obtain ⟨-, -, e0, e1, -⟩ := block_indices t
  show V m c main_v29 (((cfg0.win 1).blk t).view.emb (ix2 j q)) = V m c main_v29 (ix2 j n)
  refine congrArg _ (funext fun a => Fin.ext ?_)
  match a with
  | ⟨0, _⟩ => show win0_1.index t (0 : Fin 2) * 4096 + 1 * j.val = j.val; rw [e0]; omega
  | ⟨1, _⟩ => show win0_1.index t (1 : Fin 2) * 1024 + 1 * q.val = n.val; rw [e1, hn]; omega

/-- The bias block at point t is columns 1024 (t % 11) .. of the bias row. -/
theorem biasBlk_apply (c : Dev nD) (t : Fin cfg0.N) (q : Fin 1024) (n : Fin 11264)
    (hn : n.val = t.val % 11 * 1024 + q.val) : biasBlk m c t (ix2 (0 : Fin 1) q) = biasArr m c (ix2 (0 : Fin 1) n) := by
  obtain ⟨-, -, -, -, e0, e1, -⟩ := block_indices t
  show V m c main_v31 (((cfg0.win 2).blk t).view.emb (ix2 (0 : Fin 1) q)) = V m c main_v31 (ix2 (0 : Fin 1) n)
  refine congrArg _ (funext fun a => Fin.ext ?_)
  match a with
  | ⟨0, _⟩ => show win0_2.index t (0 : Fin 2) * 1 + 1 * 0 = 0; rw [e0]
  | ⟨1, _⟩ => show win0_2.index t (1 : Fin 2) * 1024 + 1 * q.val = n.val; rw [e1, hn]; omega

/-- An entry of what the body stores at point t is the entry of the whole product at the block's place. -/
theorem stored_entry (c : Dev nD) (t : Fin cfg0.N) (j : S512x1024.Idx) (i : S8192x11264.Idx)
    (h0 : (i 0).val = t.val / 11 * 512 + (j 0).val) (h1 : (i 1).val = t.val % 11 * 1024 + (j 1).val) :
    out0_3 (F := Ideal) (lhsBlk m c t) (rhsBlk m c t) (biasBlk m c t) j = mm (lhsArr m c) (rhsArr m c) (biasArr m c) i := by
  obtain ⟨p, q, rfl⟩ : ∃ (p : Fin 512) (q : Fin 1024), j = ix2 p q := ⟨j 0, j 1, eq_ix2 j⟩
  obtain ⟨r, n, rfl⟩ : ∃ (r : Fin 8192) (n : Fin 11264), i = ix2 r n := ⟨i 0, i 1, eq_ix2 i⟩
  refine (out0_3_apply (lhsBlk m c t) (rhsBlk m c t) (biasBlk m c t) p q).trans ?_
  refine Eq.trans ?_ (mm_apply (lhsArr m c) (rhsArr m c) (biasArr m c) r n).symm
  refine congrArg₂ (· + ·) (Finset.sum_congr rfl fun k _ => ?_) (biasBlk_apply m c t q n h1)
  exact congrArg₂ (· * ·) (lhsBlk_apply m c t p k r h0) (rhsBlk_apply m c t k q n h1)

/-- What point t writes back is block t of the whole product of the arrays as the region finds them. -/
theorem flushed3_eq (c : Dev nD) (t : Fin cfg0.N) :
    (dats (F := Ideal) m 0 c).flushed 3 t
      = ((cfg0.win 3).blk t).view.read (Elt Ideal) (mm (V m c main_v33) (V m c main_v29) (V m c main_v31)) := by
  show (cfg0.win 3).cut (grid0.coords t) ((dats m 0 c).after 3 t) = _
  rw [after0_3]
  obtain ⟨-, -, -, -, -, -, e0, e1⟩ := block_indices t
  funext j
  refine stored_entry m c t j (((cfg0.win 3).blk t).view.emb j) ?_ ?_
  · show win0_3.index t (0 : Fin 2) * 512 + 1 * (j 0).val = _; rw [e0]; omega
  · show win0_3.index t (1 : Fin 2) * 1024 + 1 * (j 1).val = _; rw [e1]; omega

/-- An entry of the output array is in point t's block iff each coordinate is in the block's range on its axis. -/
theorem mem_blk3 (t : Fin cfg0.N) (i : S8192x11264.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v34).slice (win0_3.rect t)).set ↔ _
  rw [View.set_slice_whole, Rect.mem_set_unit]
  exact Iff.rfl

/-- The blocks tile the output array: entry (r, n) is in the block of point 11 (r / 512) + n / 1024. -/
theorem covered3 (i : S8192x11264.Idx) :
    ∃ t : Fin cfg0.N, (cfg0.win 3).flush t = true ∧ i ∈ ((cfg0.win 3).blk t).view.set := by
  have hi0 : (i 0).val < 8192 := idx2_lt0 i
  have hi1 : (i 1).val < 11264 := idx2_lt1 i
  have hN : cfg0.N = 176 := N_0
  let t : Fin cfg0.N := ⟨(i 0).val / 512 * 11 + (i 1).val / 1024, by rw [hN]; omega⟩
  have ht : t.val = (i 0).val / 512 * 11 + (i 1).val / 1024 := rfl
  obtain ⟨-, -, -, -, -, -, e0, e1⟩ := block_indices t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1024 ≤ (i 1).val ∧ (i 1).val < win0_3.index t (1 : Fin 2) * 1024 + 1024; rw [e1, ht]; omega

/-- after the region the output array is that product of the three input arrays as the region found them -/
theorem final3 (c : Dev nD) :
    (Gen.dats (F := Ideal) m 0 c).arrAt 3 cfg0.N = mm (Gen.V m c main_v33) (Gen.V m c main_v29) (Gen.V m c main_v31) :=
  (dats (F := Ideal) m 0 c).arrAt_eq_of_cover 3 (mm (V m c main_v33) (V m c main_v29) (V m c main_v31))
    (fun t _ => flushed3_eq m c t) covered3

end Cert.KernelIdeal.Hand

end
-- ==== Proof.LibSetScatter.lean ====
/-
  The host's set-scatter of rows, read at an entry.

  x.at[idx].set(rows) writes update row k of a [K, C] array over row idx[k] of a [R, C] operand. The host performs the
  writes one after another, in row-major order of the update entries, each write replacing the entry it lands on. When
  the indices are in range and pairwise distinct, entry (idx[k], n) of the result is written exactly once, by update
  entry (k, n), so it holds that update entry whatever the operand held before. The first part is the general fact about
  a left fold of writes: a position that exactly one step writes ends with that step's value. The second part opens the
  dimension numbers of the row scatter and computes where an update entry lands.
-/
import Idealize.ShloMosaic.PureOps
import Idealize.ShloMosaic.Lib.ValueIdx

noncomputable section

namespace Cert.LibSetScatter

open Idealize.ShloMosaic Idealize.ShloMosaic.ValueIdx

/-- the dimension numbers of jnp's x.at[idx].set(rows): operand [R, C], one index per update row as a column [K, 1], updates [K, C] -/
abbrev rowsDims (R C K : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

section Fold
variable {I N α : Type}

/-- a left fold of steps none of which touches position i leaves position i as it was -/
theorem foldl_untouched (step : (I → α) → N → (I → α)) (i : I) (l : List N) (x : I → α)
    (h : ∀ n ∈ l, ∀ r, step r n i = r i) : l.foldl step x i = x i := by
  induction l generalizing x with
  | nil => rfl
  | cons a t ih =>
    rw [List.foldl_cons, ih (step x a) (fun n hn => h n (List.mem_cons_of_mem a hn)),
      h a (List.mem_cons.2 (Or.inl rfl))]

/-- a left fold of steps reads v n₀ at a position that n₀ writes and every other step of the list leaves alone -/
theorem foldl_write_unique (step : (I → α) → N → (I → α)) (v : N → α) (i : I) (n₀ : N) (l : List N) (x : I → α)
    (hmem : n₀ ∈ l) (hw : ∀ r, step r n₀ i = v n₀) (hu : ∀ n ∈ l, n ≠ n₀ → ∀ r, step r n i = r i) :
    l.foldl step x i = v n₀ := by
  induction l generalizing x with
  | nil => cases hmem
  | cons a t ih =>
    rw [List.foldl_cons]
    by_cases ht : n₀ ∈ t
    · exact ih (step x a) ht (fun n hn => hu n (List.mem_cons_of_mem a hn))
    · have ha : n₀ = a := by
        rcases List.mem_cons.1 hmem with h | h
        · exact h
        · exact absurd h ht
      subst ha
      rw [foldl_untouched step i t (step x n₀)
        (fun n hn r => hu n (List.mem_cons_of_mem _ hn) (fun e => ht (e ▸ hn)) r)]
      exact hw x

/-- a left fold of "write v n at position g n, when there is one" reads v n₀ at a position that n₀ and no other n writes -/
theorem foldl_set_unique [DecidableEq I] (g : N → Option I) (v : N → α) (i : I) (n₀ : N) (l : List N) (x : I → α)
    (hmem : n₀ ∈ l) (hg : g n₀ = some i) (hu : ∀ n ∈ l, g n = some i → n = n₀) :
    l.foldl (fun r n => match g n with
      | some i' => fun j => if j = i' then v n else r j
      | none => r) x i = v n₀ := by
  refine foldl_write_unique _ v i n₀ l x hmem (fun r => ?_) (fun n hn hne r => ?_)
  · rw [hg]
    exact if_pos rfl
  · cases hgn : g n with
    | none => rfl
    | some i' =>
      have hii : i ≠ i' := fun e => hne (hu n hn (by rw [hgn, e]))
      exact if_neg hii

end Fold

section Rows
variable {R C K w : Nat}

/-- the start-index entry update entry (k, n) reads is entry (k, 0) of the index column -/
theorem siIdx_rows (wf : ScatterDims.WF ⟨2, ![R, C]⟩ ⟨2, ![K, 1]⟩ ⟨2, ![K, C]⟩ [1] [0] [0] 1) (k : Fin K) (n : Fin C)
    (c : Fin (rowsDims R C K wf).scatterDimsToOperandDims.length) :
    (rowsDims R C K wf).siIdx (ix2 k n) c = ix2 k (0 : Fin 1) := by
  funext b
  refine Fin.ext ?_
  match b with
  | ⟨0, _⟩ => rfl
  | ⟨1, _⟩ =>
    have hc : c.val < 1 := c.isLt
    show c.val = 0
    omega

/-- on the row axis the window of update entry (k, n) starts at the row index of update row k -/
theorem start_rows_zero (wf : ScatterDims.WF ⟨2, ![R, C]⟩ ⟨2, ![K, 1]⟩ ⟨2, ![K, C]⟩ [1] [0] [0] 1)
    (idx : IVec ⟨2, ![K, 1]⟩ w) (k : Fin K) (n : Fin C) :
    (rowsDims R C K wf).start (ix2 k n) idx (0 : Fin 2) = (idx (ix2 k (0 : Fin 1))).toInt := by
  unfold ScatterDims.start
  rw [dif_pos (show (0 : Fin 2) ∈ (rowsDims R C K wf).scatterDimsToOperandDims from List.mem_singleton.mpr rfl),
    siIdx_rows]

/-- on the column axis the window starts at 0 -/
theorem start_rows_one (wf : ScatterDims.WF ⟨2, ![R, C]⟩ ⟨2, ![K, 1]⟩ ⟨2, ![K, C]⟩ [1] [0] [0] 1)
    (idx : IVec ⟨2, ![K, 1]⟩ w) (k : Fin K) (n : Fin C) :
    (rowsDims R C K wf).start (ix2 k n) idx (1 : Fin 2) = 0 := by
  unfold ScatterDims.start
  rw [dif_neg (fun h => absurd (List.mem_singleton.mp h) (show ¬ ((1 : Fin 2) = 0) by decide))]

/-- the row axis is inserted: the window coordinate there is 0 -/
theorem window_rows_zero (wf : ScatterDims.WF ⟨2, ![R, C]⟩ ⟨2, ![K, 1]⟩ ⟨2, ![K, C]⟩ [1] [0] [0] 1)
    (k : Fin K) (n : Fin C) : (rowsDims R C K wf).window (ix2 k n) (0 : Fin 2) = 0 := by
  unfold ScatterDims.window
  rw [dif_neg (show (0 : Fin 2) ∉ (rowsDims R C K wf).sKept from
    fun h => absurd (List.mem_singleton.mp h) (show ¬ ((0 : Fin 2) = 1) by decide))]

/-- on the column axis the window coordinate is the update entry's column -/
theorem window_rows_one (wf : ScatterDims.WF ⟨2, ![R, C]⟩ ⟨2, ![K, 1]⟩ ⟨2, ![K, C]⟩ [1] [0] [0] 1)
    (k : Fin K) (n : Fin C) : (rowsDims R C K wf).window (ix2 k n) (1 : Fin 2) = n.val := by
  unfold ScatterDims.window
  rw [dif_pos (show (1 : Fin 2) ∈ (rowsDims R C K wf).sKept from List.mem_singleton.mpr rfl)]
  rfl

end Rows
/-- where update row k lands: row r k of the operand, the same column -/
theorem resultIdx_rows {R C K w : Nat} (wf : ScatterDims.WF ⟨2, ![R, C]⟩ ⟨2, ![K, 1]⟩ ⟨2, ![K, C]⟩ [1] [0] [0] 1)
    (idx : IVec ⟨2, ![K, 1]⟩ w) (r : Fin K → Fin R)
    (hr : ∀ k, (idx (ix2 k (0 : Fin 1))).toInt = ((r k).val : Int)) (k : Fin K) (n : Fin C) :
    (rowsDims R C K wf).resultIdx? (ix2 k n) idx = some (ix2 (r k) n) := by
  have h0 : (rowsDims R C K wf).start (ix2 k n) idx (0 : Fin 2) + (rowsDims R C K wf).window (ix2 k n) (0 : Fin 2)
      = ((r k).val : Int) := by
    rw [start_rows_zero, window_rows_zero, hr k]; simp
  have h1 : (rowsDims R C K wf).start (ix2 k n) idx (1 : Fin 2) + (rowsDims R C K wf).window (ix2 k n) (1 : Fin 2)
      = (n.val : Int) := by
    rw [start_rows_one, window_rows_one]; simp
  have hall : ∀ a, 0 ≤ (rowsDims R C K wf).start (ix2 k n) idx a + (rowsDims R C K wf).window (ix2 k n) a ∧
      (rowsDims R C K wf).start (ix2 k n) idx a + (rowsDims R C K wf).window (ix2 k n) a
        < (⟨2, ![R, C]⟩ : Shape).size a := by
    intro a
    match a with
    | ⟨0, _⟩ =>
      have hlt : (r k).val < R := (r k).isLt
      show 0 ≤ _ ∧ _ < ((R : Nat) : Int)
      rw [show (⟨0, by decide⟩ : Fin 2) = 0 from rfl, h0]
      omega
    | ⟨1, _⟩ =>
      have hlt : n.val < C := n.isLt
      show 0 ≤ _ ∧ _ < ((C : Nat) : Int)
      rw [show (⟨1, by decide⟩ : Fin 2) = 1 from rfl, h1]
      omega
  unfold ScatterDims.resultIdx?
  rw [dif_pos hall]
  congr 1
  funext a
  refine Fin.ext ?_
  match a with
  | ⟨0, _⟩ =>
    show ((rowsDims R C K wf).start (ix2 k n) idx (0 : Fin 2) + (rowsDims R C K wf).window (ix2 k n) (0 : Fin 2)).toNat
      = (r k).val
    rw [h0]; simp
  | ⟨1, _⟩ =>
    show ((rowsDims R C K wf).start (ix2 k n) idx (1 : Fin 2) + (rowsDims R C K wf).window (ix2 k n) (1 : Fin 2)).toNat
      = n.val
    rw [h1]; simp

/-- THE SET-SCATTER READ AT AN ENTRY: when update row k's index is r k, in range, and r is injective, row r k of the
    result is update row k, whatever the operand held -/
theorem scatter_rows_set_apply {R C K w : Nat} (wf : ScatterDims.WF ⟨2, ![R, C]⟩ ⟨2, ![K, 1]⟩ ⟨2, ![K, C]⟩ [1] [0] [0] 1)
    {α : Type} (x : (⟨2, ![R, C]⟩ : Shape).Idx → α) (idx : IVec ⟨2, ![K, 1]⟩ w)
    (upd : (⟨2, ![K, C]⟩ : Shape).Idx → α) (r : Fin K → Fin R)
    (hr : ∀ k, (idx (ix2 k (0 : Fin 1))).toInt = ((r k).val : Int)) (hinj : Function.Injective r)
    (k : Fin K) (n : Fin C) :
    Host.scatter (rowsDims R C K wf) (fun _ b => b) x idx upd (ix2 (r k) n) = upd (ix2 k n) := by
  unfold Host.scatter
  have hv : upd ((⟨2, ![K, C]⟩ : Shape).rowMajor.symm ((⟨2, ![K, C]⟩ : Shape).rowMajor (ix2 k n))) = upd (ix2 k n) := by
    rw [Equiv.symm_apply_apply]
  refine (foldl_write_unique _ (fun m => upd ((⟨2, ![K, C]⟩ : Shape).rowMajor.symm m)) (ix2 (r k) n)
    ((⟨2, ![K, C]⟩ : Shape).rowMajor (ix2 k n)) (List.finRange _) x (List.mem_finRange _)
    (fun r' => ?_) (fun m _ hne r' => ?_)).trans hv
  · -- the step of update entry (k, n) lands on (r k, n) and writes that update entry
    rw [Equiv.symm_apply_apply, resultIdx_rows wf idx r hr k n]
    exact if_pos rfl
  · -- any other update entry (k', n') lands on (r k', n'), a different position as r is injective
    obtain ⟨k', n', hkn⟩ : ∃ (k' : Fin K) (n' : Fin C), (⟨2, ![K, C]⟩ : Shape).rowMajor.symm m = ix2 k' n' :=
      ⟨_, _, eq_ix2 _⟩
    rw [hkn, resultIdx_rows wf idx r hr k' n']
    refine if_neg (fun he => hne ?_)
    have hk : k = k' := hinj (congrFun he (0 : Fin 2))
    have hn : n = n' := congrFun he (1 : Fin 2)
    rw [← (⟨2, ![K, C]⟩ : Shape).rowMajor.apply_symm_apply m, hkn, hk, hn]

end Cert.LibSetScatter

end
-- ==== Proof.KernelValue.lean ====
/-
  The idealized kernel's result at an entry.

  After the region the output array holds, at (r, n'), row r of the activations against column n' of the padded,
  re-ordered weight, plus the padded bias at n'. The lines after the region keep the first 11008 columns. Left of the
  padding the padded arrays are the arrays themselves, and row (c k) of the re-ordered weight is row k of the
  dequantised weight (each position's index being in range and no index repeated, every row is written exactly once),
  so by the re-indexing of the sum along k ↦ c k the entry is the gathered product.
-/
import proofs.«415435_j64330020159893_1_alg».proof.Proof.Spec
import proofs.«415435_j64330020159893_1_alg».proof.Proof.KernelArray
import proofs.«415435_j64330020159893_1_alg».proof.Proof.KernelHost
import proofs.«415435_j64330020159893_1_alg».proof.Proof.LibSetScatter
import proofs.«415435_j64330020159893_1_alg».proof.Proof.LibIndexWrap
import Idealize.ShloMosaic.Lib.Pipeline.Value
import Idealize.ShloMosaic.Lib.ValueLayout

noncomputable section

open scoped BigOperators

namespace Cert.KernelIdeal.Hand

open Cert.KernelIdeal Idealize.ShloMosaic Idealize.ShloMosaic.ValueIdx Idealize.ShloMosaic.TcCoe Idealize.SL.Sem
open Facts₀ Facts

/-- Columns of padding added on the right of a matrix: an entry left of the padding is the matrix's own. -/
theorem pad_cols_apply {α : Type} {R C C' hi : Nat} (x : (⟨2, ![R, C]⟩ : Shape).Idx → α) {u : Shape} (v : u.Idx → α)
    (h : (⟨2, ![R, C]⟩ : Shape).Pads ![0, 0] ![0, hi] ![0, 0] ⟨2, ![R, C']⟩) (hu : 0 < u.numel)
    (r : Fin R) (n : Fin C) (n' : Fin C') (hn : n'.val = n.val) :
    pad ⟨2, ![R, C']⟩ ![0, 0] ![0, hi] ![0, 0] x v h hu (ix2 r n') = x (ix2 r n) := by
  have hin : ∀ a : Fin (⟨2, ![R, C]⟩ : Shape).rank,
      (![0, 0] : Fin 2 → Nat) a ≤ ((ix2 r n' : (⟨2, ![R, C']⟩ : Shape).Idx) (a.cast h.1)).val
      ∧ (((ix2 r n' : (⟨2, ![R, C']⟩ : Shape).Idx) (a.cast h.1)).val - (![0, 0] : Fin 2 → Nat) a) % ((![0, 0] : Fin 2 → Nat) a + 1) = 0
      ∧ (((ix2 r n' : (⟨2, ![R, C']⟩ : Shape).Idx) (a.cast h.1)).val - (![0, 0] : Fin 2 → Nat) a) / ((![0, 0] : Fin 2 → Nat) a + 1)
          < (⟨2, ![R, C]⟩ : Shape).size a := by
    intro a
    match a with
    | ⟨0, _⟩ =>
      refine ⟨Nat.zero_le _, Nat.mod_one _, ?_⟩
      show (r.val - 0) / (0 + 1) < R
      simp
    | ⟨1, _⟩ =>
      refine ⟨Nat.zero_le _, Nat.mod_one _, ?_⟩
      show (n'.val - 0) / (0 + 1) < C
      simp [hn]
  unfold pad
  rw [dif_pos hin]
  congr 1
  funext a
  match a with
  | ⟨0, _⟩ => exact Fin.ext (by show (r.val - 0) / (0 + 1) = r.val; simp)
  | ⟨1, _⟩ => exact Fin.ext (by show (n'.val - 0) / (0 + 1) = n.val; simp [hn])

/-- Padding added at the end of a vector: an entry before the padding is the vector's own. -/
theorem pad_vec_apply {α : Type} {C C' hi : Nat} (x : (⟨1, ![C]⟩ : Shape).Idx → α) {u : Shape} (v : u.Idx → α)
    (h : (⟨1, ![C]⟩ : Shape).Pads ![0] ![hi] ![0] ⟨1, ![C']⟩) (hu : 0 < u.numel)
    (n : Fin C) (n' : Fin C') (hn : n'.val = n.val) :
    pad ⟨1, ![C']⟩ ![0] ![hi] ![0] x v h hu (ix1 n') = x (ix1 n) := by
  have hin : ∀ a : Fin (⟨1, ![C]⟩ : Shape).rank,
      (![0] : Fin 1 → Nat) a ≤ ((ix1 n' : (⟨1, ![C']⟩ : Shape).Idx) (a.cast h.1)).val
      ∧ (((ix1 n' : (⟨1, ![C']⟩ : Shape).Idx) (a.cast h.1)).val - (![0] : Fin 1 → Nat) a) % ((![0] : Fin 1 → Nat) a + 1) = 0
      ∧ (((ix1 n' : (⟨1, ![C']⟩ : Shape).Idx) (a.cast h.1)).val - (![0] : Fin 1 → Nat) a) / ((![0] : Fin 1 → Nat) a + 1)
          < (⟨1, ![C]⟩ : Shape).size a := by
    intro a
    match a with
    | ⟨0, _⟩ =>
      refine ⟨Nat.zero_le _, Nat.mod_one _, ?_⟩
      show (n'.val - 0) / (0 + 1) < C
      simp [hn]
  unfold pad
  rw [dif_pos hin]
  congr 1
  funext a
  match a with
  | ⟨0, _⟩ => exact Fin.ext (by show (n'.val - 0) / (0 + 1) = n.val; simp [hn])

/-- The scatter's index column at position k is the index itself when the indices are in range. -/
theorem idxK_apply (c : IVec S4096 32) (hr : Cert.Spec.InRange c) (k : Fin 4096) :
    idxK c (ix2 k (0 : Fin 1)) = c (ix1 k) :=
  Cert.LibIndexWrap.wrapped_col_apply c hr bcast_S_S4096 bcast_S_S4096 bcast_S4096_S4096x1_0 k

/-- Row (c k) of the re-ordered weight is row k of the dequantised weight: in range and without repeats, position k is
    the one update that writes that row. -/
theorem Wre_apply (c : IVec S4096 32) (P : IVec S2048x11008 32) (Sc : FVec Ideal S32x11008 .f32)
    (hr : Cert.Spec.InRange c) (hd : Cert.Spec.Distinct c) (k : Fin 4096) (n : Fin 11008) :
    Wre c P Sc (ix2 (Cert.Spec.col c k) n) = Wk P Sc (ix2 k n) := by
  unfold Wre
  exact Cert.LibSetScatter.scatter_rows_set_apply (R := 4096) (C := 11008) (K := 4096)
    scatter_S4096x11008_S4096x1_S4096x11008_1_0_0_1_wf _ (idxK c) (Wk P Sc) (Cert.Spec.col c)
    (fun k => by rw [idxK_apply c hr k]; exact (Cert.Spec.col_val hr k).symm)
    (Cert.Spec.col_injective hr hd) k n

/-- THE KERNEL'S RESULT AT AN ENTRY: entry (p, n) of the first 11008 columns of the region's output array is the
    gathered product. -/
theorem ker2D_apply (m : (ℓ : Loc nD τ sig) → Buf (Elt Ideal) ℓ) (c : Dev nD)
    (hr : Cert.Spec.InRange (m ((c.tc : Thread nD τ).loc main_arg1)))
    (hd : Cert.Spec.Distinct (m ((c.tc : Thread nD τ).loc main_arg1))) (p : Fin 8192) (n : Fin 11008) :
    extractStridedSlice S8192x11008 ![0, 0]
        ((Gen.dats (F := Ideal) m 0 c).arrAt 3 cfg0.N : FVec Ideal S8192x11264 .f32) slices_S8192x11264_S8192x11008_0_0 (ix2 p n)
      = Cert.Spec.gatheredAt
          (shapeCast S8192x4096 (m ((c.tc : Thread nD τ).loc main_arg0) : FVec Ideal S4x2048x4096 .f32) shapeCasts_S4x2048x4096_S8192x4096)
          (m ((c.tc : Thread nD τ).loc main_arg1))
          (Wk (m ((c.tc : Thread nD τ).loc main_arg2)) (m ((c.tc : Thread nD τ).loc main_arg3)))
          (m ((c.tc : Thread nD τ).loc main_arg4)) p n := by
  have hn : n.val < 11264 := by have := n.isLt; omega
  rw [extractStridedSlice_apply _ _ slices_S8192x11264_S8192x11008_0_0 (ix2 p n) (ix2 p (⟨n.val, hn⟩ : Fin 11264))
    (fun a => by
      match a with
      | ⟨0, _⟩ => show p.val = 0 + p.val; omega
      | ⟨1, _⟩ => show n.val = 0 + n.val; omega)]
  rw [final3, mm_apply, V_v33, V_v29, V_v31]
  refine Eq.trans ?_ (Cert.Spec.plain_eq_gathered hr hd _ _ _ _
    (fun k n => Wre_apply _ _ _ hr hd k n) p n)
  generalize Wre (m ((c.tc : Thread nD τ).loc main_arg1)) (m ((c.tc : Thread nD τ).loc main_arg2))
    (m ((c.tc : Thread nD τ).loc main_arg3)) = W'
  refine congrArg₂ (· + ·) ?_ ?_
  · refine Finset.sum_congr rfl fun j _ => ?_
    refine congrArg₂ (· * ·) rfl ?_
    exact pad_cols_apply (truncf .bf16 W' bitsLt_bf16_f32) _ pads_S4096x11008_S4096x11264_000_02560 h_S_ j n ⟨n.val, hn⟩ rfl
  · exact (shapeCast_a_1a_apply _ shapeCasts_S11264_S1x11264 (0 : Fin 1) ⟨n.val, hn⟩).trans
      (pad_vec_apply _ _ pads_S11008_S11264_02560 h_S_ n ⟨n.val, hn⟩ rfl)

end Cert.KernelIdeal.Hand

end
-- ==== Proof.Bridge.lean ====
/-
  The two programs' results are one function of the arguments.

  Both results are a two-axis array recast to three axes. Entry (p, n) of the reference's array and entry (p, n) of
  the kernel's are each the gathered product: row p of the activations, its columns taken in the order of the index
  vector, against column n of the dequantised weight, plus the bias at n. The dequantised weight is the same composed
  function of the packed words and the scales in both programs, operation for operation. The index vector is a
  permutation of the columns by the precondition: that is where the kernel's side needs it.
-/
import proofs.«415435_j64330020159893_1_alg».proof.Proof.Spec
import proofs.«415435_j64330020159893_1_alg».proof.Proof.PreDecode
import proofs.«415435_j64330020159893_1_alg».proof.Proof.RefValue
import proofs.«415435_j64330020159893_1_alg».proof.Proof.KernelValue

noncomputable section

namespace Cert.Bridge

open Idealize.ShloMosaic Idealize.ShloMosaic.ValueIdx Idealize.ShloMosaic.TcCoe Idealize.SL.Sem

/-- The dequantised weight is one function in the two programs: the same operations in the same order. -/
theorem weight_eq (P : IVec Cert.KernelIdeal.S2048x11008 32) (Sc : FVec Ideal Cert.KernelIdeal.S32x11008 .f32) :
    Cert.ReferenceIdeal.Hand.Wr P Sc = Cert.KernelIdeal.Hand.Wk P Sc := rfl

/-- Under the precondition the reference's result, at the kernel's arguments, is the kernel's result. -/
theorem result_eq (m : (ℓ : Loc Cert.KernelIdeal.nD Cert.KernelIdeal.τ Cert.KernelIdeal.sig) → Buf (Elt Ideal) ℓ)
    (c : Dev Cert.KernelIdeal.nD)
    (h : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = (fun _ => 1#1)) :
    (shapeCast Cert.ReferenceIdeal.S4x2048x11008
        (Cert.ReferenceIdeal.Hand.res2D
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)))
        Cert.ReferenceIdeal.Facts₀.shapeCasts_S8192x11008_S4x2048x11008 : FVec Ideal Cert.ReferenceIdeal.S4x2048x11008 .f32)
      = (shapeCast Cert.KernelIdeal.S4x2048x11008
          (extractStridedSlice Cert.KernelIdeal.S8192x11008 ![0, 0]
            ((Cert.KernelIdeal.Gen.dats (F := Ideal) m 0 c).arrAt 3 Cert.KernelIdeal.cfg0.N : FVec Ideal Cert.KernelIdeal.S8192x11264 .f32)
            Cert.KernelIdeal.Facts₀.slices_S8192x11264_S8192x11008_0_0)
          Cert.KernelIdeal.Facts₀.shapeCasts_S8192x11008_S4x2048x11008 : FVec Ideal Cert.KernelIdeal.S4x2048x11008 .f32) := by
  have hr := Cert.PreDecode.inRange_of_pre _ _ _ _ _ h
  have hd := Cert.PreDecode.distinct_of_pre _ _ _ _ _ h
  refine congrArg (fun T : (⟨2, ![8192, 11008]⟩ : Shape).Idx → EReal =>
    (shapeCast (⟨3, ![4, 2048, 11008]⟩ : Shape) T Cert.KernelIdeal.Facts₀.shapeCasts_S8192x11008_S4x2048x11008)) ?_
  funext i
  obtain ⟨p, n, rfl⟩ : ∃ (p : Fin 8192) (n : Fin 11008), i = ix2 p n := ⟨i 0, i 1, eq_ix2 i⟩
  rw [Cert.ReferenceIdeal.Hand.res2D_apply _ _ _ _ _ hr p n, weight_eq]
  exact (Cert.KernelIdeal.Hand.ker2D_apply m c hr hd p n).symm

end Cert.Bridge

end
-- ==== Proof.lean ====
/-
  The kernel computes x · W' + bias, where W' is the dequantised weight with its rows set at the positions the index
  vector names, inside one tiled matrix product on the accelerator; the reference computes take(x, indices) · W + bias
  on the host. Over the extended reals the two are one function when the index vector is a permutation of the 4096
  columns, which the precondition says (every index in range, no index at two positions): the product's sum over the
  columns, re-indexed along the permutation. Nothing is asked of the float entries beyond what the statement carries.

  The kernel's frames are the generated ones. The reference is a host program; its run is written out operation by
  operation, and its frame is that run with the result dropped. Nothing was rewritten when the kernel was idealized,
  so there is nothing to preserve. The value part is: the kernel's run names its result as the first 11008 columns of
  the region's output array; the reference's run names its result as a composed term of the arguments; and, entry by
  entry, both are the gathered product (Proof/Bridge.lean).
-/
import proofs.«415435_j64330020159893_1_alg».proof.Defs
import proofs.«415435_j64330020159893_1_alg».proof.Proof.Gen.Kernel
import proofs.«415435_j64330020159893_1_alg».proof.Proof.Gen.Kernel.Frame
import proofs.«415435_j64330020159893_1_alg».proof.Proof.Gen.KernelIdeal
import proofs.«415435_j64330020159893_1_alg».proof.Proof.Gen.KernelIdeal.Frame
import proofs.«415435_j64330020159893_1_alg».proof.Proof.Gen.ReferenceIdeal
import proofs.«415435_j64330020159893_1_alg».proof.Proof.Gen.Pre_finite_inputs
import proofs.«415435_j64330020159893_1_alg».proof.Proof.RefRun
import proofs.«415435_j64330020159893_1_alg».proof.Proof.KernelHost
import proofs.«415435_j64330020159893_1_alg».proof.Proof.Bridge
import Idealize.ShloMosaic.Adequacy
import Idealize.ShloMosaic.Init

noncomputable section

namespace Cert.Proof

open Idealize.ShloMosaic Idealize.SL.Sem

/-- The kernel as printed runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Hand.run m ρ)

/-- From memories that agree on the arguments both programs end, and with the same result: the kernel's array, which
    under the precondition is the reference's composed term. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
